-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S1x4096x4096 : Shape := ⟨3, ![1, 4096, 4096]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S4x4096x512 .f32) (main_arg1 : FVec F S1x4096x4096 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S1x4096x4096 .f32 := Host.absf main_arg1
  let main_cst_0 : FVec F S_ .f32 := constant S_ .f32 0x7F800000#32
  let main_v5 : FVec F S1x4096x4096 .f32 := broadcastInDim S1x4096x4096 ![] bcast_S_S1x4096x4096 main_cst_0
  let main_v6 : IVec S1x4096x4096 1 := cmpf .olt main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x4096x512 : Shape := ⟨3, ![4, 4096, 512]⟩
abbrev S1x4096x4096 : Shape := ⟨3, ![1, 4096, 4096]⟩
abbrev S512x512 : Shape := ⟨2, ![512, 512]⟩
abbrev S512 : Shape := ⟨1, ![512]⟩
abbrev S4x512x512 : Shape := ⟨3, ![4, 512, 512]⟩
abbrev S2048x512 : Shape := ⟨2, ![2048, 512]⟩
abbrev S1x512 : Shape := ⟨2, ![1, 512]⟩
abbrev S4x1024x512 : Shape := ⟨3, ![4, 1024, 512]⟩
abbrev S1x1024x512 : Shape := ⟨3, ![1, 1024, 512]⟩

abbrev nBuf : Space → Nat
  | .hbm => 12
  | .vmem => 24
  | .smem => 0
  | _ => 0

abbrev bufTy : (tb : Table) → Fin (tcTables nBuf tb) → BufTy
  | .hbm, ⟨0, _⟩ => ⟨S4x4096x512, .f32⟩
  | .hbm, ⟨1, _⟩ => ⟨S1x4096x4096, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S4x4096x512, .bf16⟩
  | .hbm, ⟨9, _⟩ => ⟨S4x4096x512, .bf16⟩
  | .hbm, ⟨10, _⟩ => ⟨S4x4096x512, .bf16⟩
  | .hbm, ⟨11, _⟩ => ⟨S4x4096x512, .f32⟩
  | .local _ .vmem, ⟨0, _⟩ => ⟨S4x512x512, .f32⟩
  | .local _ .vmem, ⟨1, _⟩ => ⟨S4x512x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S4x512x512, .bf16⟩
  | .local _ .vmem, ⟨9, _⟩ => ⟨S4x512x512, .bf16⟩
  | .local _ .vmem, ⟨10, _⟩ => ⟨S4x512x512, .bf16⟩
  | .local _ .vmem, ⟨11, _⟩ => ⟨S4x512x512, .bf16⟩
  | .local _ .vmem, ⟨12, _⟩ => ⟨S4x512x512, .bf16⟩
  | .local _ .vmem, ⟨13, _⟩ => ⟨S4x512x512, .bf16⟩
  | .local _ .vmem, ⟨14, _⟩ => ⟨S4x1024x512, .bf16⟩
  | .local _ .vmem, ⟨15, _⟩ => ⟨S4x1024x512, .bf16⟩
  | .local _ .vmem, ⟨16, _⟩ => ⟨S4x512x512, .bf16⟩
  | .local _ .vmem, ⟨17, _⟩ => ⟨S4x512x512, .bf16⟩
  | .local _ .vmem, ⟨18, _⟩ => ⟨S4x512x512, .bf16⟩
  | .local _ .vmem, ⟨19, _⟩ => ⟨S4x512x512, .bf16⟩
  | .local _ .vmem, ⟨20, _⟩ => ⟨S1x1024x512, .f32⟩
  | .local _ .vmem, ⟨21, _⟩ => ⟨S1x1024x512, .f32⟩
  | .local _ .vmem, ⟨22, _⟩ => ⟨S4x1024x512, .f32⟩
  | .local _ .vmem, ⟨23, _⟩ => ⟨S4x1024x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S4x512x512_S4x512x512_0_0_0 : ∀ a, (![0, 0, 0] : Fin 3 → Nat) a + S4x512x512.size a ≤ S4x512x512.size a
  h_S4x512x512 : 0 < S4x512x512.numel
  shapeCasts_S4x512x512_S2048x512 : S4x512x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S2048x512_S4x512x512 : S2048x512.ShapeCasts S4x512x512
  packedbf16_S4x512x512_S4x512x512_0_0_0 : (Rect.unit (s := S4x512x512) ![0, 0, 0] S4x512x512.size inb_S4x512x512_S4x512x512_0_0_0).PackedRows (EltTy.packing .bf16)
  inb_S4x1024x512_S4x1024x512_0_0_0 : ∀ a, (![0, 0, 0] : Fin 3 → Nat) a + S4x1024x512.size a ≤ S4x1024x512.size a
  h_S4x1024x512 : 0 < S4x1024x512.numel
  shapeCasts_S4x1024x512_S4x1024x512 : S4x1024x512.ShapeCasts S4x1024x512
  shapeCasts_S4x512x512_S4x512x512 : S4x512x512.ShapeCasts S4x512x512
  inb_S1x1024x512_S1x1024x512_0_0_0 : ∀ a, (![0, 0, 0] : Fin 3 → Nat) a + S1x1024x512.size a ≤ S1x1024x512.size a
  h_S1x1024x512 : 0 < S1x1024x512.numel
  broadcasts_S1x1024x512_S4x1024x512 : S1x1024x512.Broadcasts S4x1024x512
  dot_S2048x512_S512x512_S2048x512_1_1_0_0_n_n_wf : DotDims.WF S2048x512 S512x512 S2048x512 [1] [1] [0] [0] [] []
  dot_S4x1024x512_S4x512x512_S4x1024x512_2_2_1_1_0_0_wf : DotDims.WF S4x1024x512 S4x512x512 S4x1024x512 [2] [2] [1] [1] [0] [0]
  dot_S4x1024x512_S4x512x512_S4x1024x512_2_1_1_2_0_0_wf : DotDims.WF S4x1024x512 S4x512x512 S4x1024x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S4x4096x512.size a
  hwx0_0 : ∀ i : grid0.Coords, EltTy.bits .f32 = 32 ∨ (Rect.block (s := S4x4096x512) S4x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x512x512.size a ≤ S4x4096x512.size a
  hwx0_7 : ∀ i : grid0.Coords, EltTy.bits .bf16 = 32 ∨ (Rect.block (s := S4x4096x512) S4x512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x512x512.size a ≤ S4x4096x512.size a
  hwx0_8 : ∀ i : grid0.Coords, EltTy.bits .bf16 = 32 ∨ (Rect.block (s := S4x4096x512) S4x512x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x512x512.size a ≤ S4x4096x512.size a
  hwx0_9 : ∀ i : grid0.Coords, EltTy.bits .bf16 = 32 ∨ (Rect.block (s := S4x4096x512) S4x512x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x512.size a ≤ S4x4096x512.size a
  hwx1_0 : ∀ i : grid1.Coords, EltTy.bits .bf16 = 32 ∨ (Rect.block (s := S4x4096x512) S4x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x512.size a ≤ S4x4096x512.size a
  hwx1_1 : ∀ i : grid1.Coords, EltTy.bits .bf16 = 32 ∨ (Rect.block (s := S4x4096x512) S4x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x512.size a ≤ S4x4096x512.size a
  hwx1_2 : ∀ i : grid1.Coords, EltTy.bits .bf16 = 32 ∨ (Rect.block (s := S4x4096x512) S4x512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S1x4096x4096.size a
  hwx1_3 : ∀ i : grid1.Coords, EltTy.bits .f32 = 32 ∨ (Rect.block (s := S1x4096x4096) S1x1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x1024x512.size a ≤ S4x4096x512.size a
  hwx1_4 : ∀ i : grid1.Coords, EltTy.bits .f32 = 32 ∨ (Rect.block (s := S4x4096x512) S4x1024x512.size (cc1_transform_4 i) (hinb1_4 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S4x1024x512_S4x512x512_S4x1024x512_2_2_1_1_0_0 : DotDims S4x1024x512 S4x512x512 S4x1024x512 where
  lhsContracting := [2]
  rhsContracting := [2]
  lhsNonContracting := [1]
  rhsNonContracting := [1]
  lhsBatch := [0]
  rhsBatch := [0]
  wf := dot_S4x1024x512_S4x512x512_S4x1024x512_2_2_1_1_0_0_wf
def dot_S4x1024x512_S4x512x512_S4x1024x512_2_1_1_2_0_0 : DotDims S4x1024x512 S4x512x512 S4x1024x512 where
  lhsContracting := [2]
  rhsContracting := [1]
  lhsNonContracting := [1]
  rhsNonContracting := [2]
  lhsBatch := [0]
  rhsBatch := [0]
  wf := dot_S4x1024x512_S4x512x512_S4x1024x512_2_1_1_2_0_0_wf

abbrev win0_0 : Pipeline.Window sig grid0 :=
  Pipeline.Window.ofSpec (Memref.whole main_arg0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S4x512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S4x512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S4x512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_0) S4x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S4x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S4x1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x512 : Shape := ⟨3, ![4, 4096, 512]⟩
abbrev S1x4096x4096 : Shape := ⟨3, ![1, 4096, 4096]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S4x4096x4096 : Shape := ⟨3, ![4, 4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S1x4096x4096, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S4x4096x512, .f32⟩
  | .hbm, ⟨9, _⟩ => ⟨S1x1x512, .f32⟩
  | .hbm, ⟨10, _⟩ => ⟨S4x4096x512, .f32⟩
  | .hbm, ⟨11, _⟩ => ⟨S4x4096x512, .f32⟩
  | .hbm, ⟨12, _⟩ => ⟨S4x4096x512, .f32⟩
  | .hbm, ⟨13, _⟩ => ⟨S1x1x512, .f32⟩
  | .hbm, ⟨14, _⟩ => ⟨S4x4096x512, .f32⟩
  | .hbm, ⟨15, _⟩ => ⟨S4x4096x512, .f32⟩
  | .hbm, ⟨16, _⟩ => ⟨S4x4096x512, .f32⟩
  | .hbm, ⟨17, _⟩ => ⟨S1x1x512, .f32⟩
  | .hbm, ⟨18, _⟩ => ⟨S4x4096x512, .f32⟩
  | .hbm, ⟨19, _⟩ => ⟨S4x4096x512, .f32⟩
  | .hbm, ⟨20, _⟩ => ⟨S_, .f32⟩
  | .hbm, ⟨21, _⟩ => ⟨S4x4096x512, .f32⟩
  | .hbm, ⟨22, _⟩ => ⟨S4x4096x512, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096x4096, .f32⟩
  | .hbm, ⟨33, _⟩ => ⟨S4x4096x4096, .f32⟩
  | .hbm, ⟨34, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x512 : S_.BroadcastsInDim S4x4096x512 (![] : Fin 0 → Fin S4x4096x512.rank)
  bcast_S1x4096x4096_S4x4096x4096_0_1_2 : S1x4096x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x512_S512x512_S4x4096x512_2_1_01_0_n_n_wf : DotDims.WF S4x4096x512 S512x512 S4x4096x512 [2] [1] [0, 1] [0] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.Spec.lean ====
/-
  The mathematics both programs compute, as functions of the argument arrays over the extended reals.

  A linear layer reads row `(b, s)` of the input against row `e` of the weight and adds the bias at `e`:
  `proj x W β b s e = (∑ d, x[b, s, d] · W[e, d]) + β[e]`.

  The attention weight of key `k` for query `(b, q)` is the logistic function of the scaled score plus the bias:
  `wgt Q K bias b q k = logistic ((∑ e, (Q[b, q, e] · scale) · K[b, k, e]) + bias[0, q, k])`,
  and there is no normalisation over the keys, so the output is the plain sum
  `attn Q K V bias b q d = ∑ k, wgt Q K bias b q k · V[b, k, d]` over all 4096 keys.

  The one law that joins a tiled evaluation to this sum: the 4096 keys are 8 consecutive tiles of 512, and adding the
  tiles' partial sums in order from zero gives the whole sum. Addition on the extended reals is commutative and
  associative at the infinities too, so the law needs no finiteness of the inputs.
-/
import Idealize.ShloMosaic.PureOps.Ideal
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- The shapes of the arrays: activations `[4, 4096, 512]`, a weight `[512, 512]`, a bias vector `[512]`, the score
    bias `[1, 4096, 4096]`. -/
abbrev SAct : Shape := ⟨3, ![4, 4096, 512]⟩
abbrev SWgt : Shape := ⟨2, ![512, 512]⟩
abbrev SVec : Shape := ⟨1, ![512]⟩
abbrev SBias : Shape := ⟨3, ![1, 4096, 4096]⟩

/-- The score scale both programs multiply the queries by: the single-precision word nearest `1 / √512`, the same word
    in both, so its value is never needed. -/
def scale : EReal := Ideal.ofBits .f32 0x3D3504F3#32

/-- A linear layer at one output element. -/
def proj (x : SAct.Idx → EReal) (W : SWgt.Idx → EReal) (β : SVec.Idx → EReal) (b : Fin 4) (s : Fin 4096) (e : Fin 512) : EReal :=
  (∑ d : Fin 512, x (ix3 b s d) * W (ix2 e d)) + β (ix1 e)

/-- The same as an array. -/
def projArr (x : SAct.Idx → EReal) (W : SWgt.Idx → EReal) (β : SVec.Idx → EReal) : SAct.Idx → EReal :=
  fun i => proj x W β (i 0) (i 1) (i 2)

/-- The key position a natural number names (positions past the last key wrap; they are never read). -/
def key (n : ℕ) : Fin 4096 := ⟨n % 4096, Nat.mod_lt _ (by decide)⟩

theorem key_val (k : Fin 4096) : key k.val = k := Fin.ext (Nat.mod_eq_of_lt k.isLt)

theorem key_of_lt {n : ℕ} (h : n < 4096) : key n = ⟨n, h⟩ := Fin.ext (Nat.mod_eq_of_lt h)

/-- The attention weight of key `k` for query `(b, q)`. -/
def wgt (Q K : SAct.Idx → EReal) (bias : SBias.Idx → EReal) (b : Fin 4) (q k : Fin 4096) : EReal :=
  Ideal.logistic ((∑ e : Fin 512, (Q (ix3 b q e) * scale) * K (ix3 b k e)) + bias (ix3 (0 : Fin 1) q k))

/-- Key number `n`'s contribution to output element `(b, q, d)`. -/
def term (Q K V : SAct.Idx → EReal) (bias : SBias.Idx → EReal) (b : Fin 4) (q : Fin 4096) (d : Fin 512) (n : ℕ) : EReal :=
  wgt Q K bias b q (key n) * V (ix3 b (key n) d)

/-- Attention without normalisation at one output element: the sum of every key's contribution. -/
def attn (Q K V : SAct.Idx → EReal) (bias : SBias.Idx → EReal) (b : Fin 4) (q : Fin 4096) (d : Fin 512) : EReal :=
  ∑ k : Fin 4096, term Q K V bias b q d k.val

/-- The same as an array. -/
def attnArr (Q K V : SAct.Idx → EReal) (bias : SBias.Idx → EReal) : SAct.Idx → EReal :=
  fun i => attn Q K V bias (i 0) (i 1) (i 2)

/-- The 4096 keys are 8 consecutive tiles of 512: summing tile by tile is summing over all keys. -/
theorem sum_tiles {M : Type*} [AddCommMonoid M] (f : ℕ → M) :
    ∑ s ∈ Finset.range 8, ∑ k' : Fin 512, f (512 * s + k'.val) = ∑ k : Fin 4096, f k.val := by
  rw [Finset.sum_range (fun s => ∑ k' : Fin 512, f (512 * s + k'.val))]
  rw [← Finset.sum_product' (Finset.univ : Finset (Fin 8)) (Finset.univ : Finset (Fin 512)) (fun s k' => f (512 * s.val + k'.val))]
  rw [Finset.univ_product_univ]
  rw [← Equiv.sum_comp (finProdFinEquiv : Fin 8 × Fin 512 ≃ Fin (8 * 512)) (fun k => f k.val)]
  refine Finset.sum_congr rfl fun p _ => ?_
  show f (512 * p.1.val + p.2.val) = f (p.2.val + 512 * p.1.val)
  rw [Nat.add_comm]

/-- Eight tiles' partial sums added in order onto zero are the attention sum. -/
theorem zero_add_tiles (Q K V : SAct.Idx → EReal) (bias : SBias.Idx → EReal) (b : Fin 4) (q : Fin 4096) (d : Fin 512) :
    (0 : EReal) + ∑ s ∈ Finset.range 8, ∑ k' : Fin 512, term Q K V bias b q d (512 * s + k'.val) = attn Q K V bias b q d := by
  rw [zero_add, sum_tiles]
  rfl

end Cert.Spec

end
-- ==== Proof.ProjPayload.lean ====
/-
  The projection kernel's arithmetic at one output element, over the extended reals.

  One grid point holds a [4, 512, 512] slab of the input (4 batches, 512 sequence rows, 512 features). The body flattens
  it to 2048 rows, multiplies by the transposed [512, 512] weight into a zero accumulator, adds the bias vector along the
  rows and folds the rows back to [4, 512, 512]. Flattening and folding are inverse re-indexings (row `512·b + r`), the
  product into zero is the plain sum over the contracted feature axis, and the changes of float format are identities, so
  element `(b, r, e)` is `(∑ d, v0[b, r, d] · W[e, d]) + β[e]`. The three projections (queries, keys, values) are the same
  term at three weight/bias pairs.
-/
import proofs.«152282_j3487513444911_1_alg».proof.Proof.Gen.KernelIdeal.Skeleton
import proofs.«152282_j3487513444911_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ProjPayload

open Cert.KernelIdeal Cert.KernelIdeal.Gen Idealize.ShloMosaic Idealize.ShloMosaic.ValueIdx

/-- The key projection's payload is the query projection's term at its own weight and bias. -/
theorem k0_pay3_eq {F : FTy → Type} [FloatOps F] (v0 : Vec F S4x512x512 .f32) (w : Vec F S512x512 .f32) (β : Vec F S512 .f32) :
    k0_pay3 v0 w β = k0_pay2 v0 w β := rfl

/-- The value projection's payload likewise. -/
theorem k0_pay4_eq {F : FTy → Type} [FloatOps F] (v0 : Vec F S4x512x512 .f32) (w : Vec F S512x512 .f32) (β : Vec F S512 .f32) :
    k0_pay4 v0 w β = k0_pay2 v0 w β := rfl

/-- The product's left operand is read at the output element's row: axis 0 of the left operand is its free axis. -/
theorem lhs_proj_0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl

/-- Axis 1 of the left operand is the contracted feature axis. -/
theorem lhs_proj_1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q

/-- The product's right operand is read at the output element's column: axis 0 of the weight is its free axis, so the
    weight enters transposed. -/
theorem rhs_proj_0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl

/-- Axis 1 of the weight is the contracted feature axis. -/
theorem rhs_proj_1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The product into the zero accumulator at element `(i, e)`: row `i` of the left operand against row `e` of the
    right one, summed over the 512 features. -/
theorem proj_matmul_apply (lhs : FVec Ideal S2048x512 .bf16) (rhs : FVec Ideal S512x512 .bf16) (i : Fin 2048) (e : Fin 512) :
    matmul dot_S2048x512_S512x512_S2048x512_1_1_0_0_n_n none lhs rhs (constant (F := Ideal) S2048x512 .f32 0x00000000#32) (ix2 i e)
      = ∑ d : Fin 512, lhs (ix2 i d) * rhs (ix2 e d) := by
  simp only [matmul]
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 i e) ((contrEquiv1 dot_S2048x512_S512x512_S2048x512_1_1_0_0_n_n 512 rfl rfl).symm k) = ix2 i k := funext fun a => Fin.ext (by
    match a with
    | ⟨0, _⟩ => exact lhs_proj_0 _ _
    | ⟨1, _⟩ => exact (lhs_proj_1 _ _).trans hk)
  have er : dot_S2048x512_S512x512_S2048x512_1_1_0_0_n_n.rhsIdx (ix2 i e) ((contrEquiv1 dot_S2048x512_S512x512_S2048x512_1_1_0_0_n_n 512 rfl rfl).symm k) = ix2 e k := funext fun a => Fin.ext (by
    match a with
    | ⟨0, _⟩ => exact rhs_proj_0 _ _
    | ⟨1, _⟩ => exact (rhs_proj_1 _ _).trans hk)
  rw [el, er]

/-- Row `(b, r)` of the slab is row `512·b + r` of the flattened matrix. -/
abbrev flatRow (b : Fin 4) (r : Fin 512) : Fin 2048 := ⟨512 * b.val + r.val, by omega⟩

/-- The flattened (and format-changed) input at `(512·b + r, d)` is the slab at `(b, r, d)`: both sit at the same
    row-major position. -/
theorem k0_pay1_apply (v0 : Vec Ideal S4x512x512 .f32) (b : Fin 4) (r : Fin 512) (d : Fin 512) :
    k0_pay1 (F := Ideal) v0 (ix2 (flatRow b r) d) = v0 (ix3 b r d) := by
  unfold k0_pay1
  refine (shapeCast_apply v0 shapeCasts_S4x512x512_S2048x512 (ix2 (flatRow b r) d) (ix3 b r d) ?_)
  rw [Shape.rowMajor_val_three, Shape.rowMajor_val_two]
  show (b.val * 512 + r.val) * 512 + d.val = (512 * b.val + r.val) * 512 + d.val
  omega

/-- The bias, reshaped to one row and repeated over the 2048 rows, is `β[e]` at every `(i, e)`. -/
theorem proj_bias_apply (β : Vec Ideal S512 .f32) (i : Fin 2048) (e : Fin 512) :
    broadcastTo S2048x512 (shapeCast S1x512 β shapeCasts_S512_S1x512) broadcasts_S1x512_S2048x512 (ix2 i e) = β (ix1 e) :=
  (broadcastTo_1b_ab_apply _ broadcasts_S1x512_S2048x512 i e).trans (shapeCast_a_1a_apply β shapeCasts_S512_S1x512 0 e)

/-- Element `(b, r, e)` of a projection's block: row `(b, r)` of the input slab against row `e` of the weight, plus the
    bias at `e`. -/
theorem k0_pay2_apply (v0 : Vec Ideal S4x512x512 .f32) (w : Vec Ideal S512x512 .f32) (β : Vec Ideal S512 .f32)
    (b : Fin 4) (r : Fin 512) (e : Fin 512) :
    k0_pay2 (F := Ideal) v0 w β (ix3 b r e) = (∑ d : Fin 512, v0 (ix3 b r d) * w (ix2 e d)) + β (ix1 e) := by
  unfold k0_pay2
  refine (truncf_apply _ bitsLt_bf16_f32 (ix3 b r e)).trans ?_
  refine (shapeCast_apply _ shapeCasts_S2048x512_S4x512x512 (ix3 b r e) (ix2 (flatRow b r) e) ?_).trans ?_
  · rw [Shape.rowMajor_val_three, Shape.rowMajor_val_two]
    show (512 * b.val + r.val) * 512 + e.val = (b.val * 512 + r.val) * 512 + e.val
    omega
  · refine (addf_apply _ _ (ix2 (flatRow b r) e)).trans ?_
    refine (congrArg₂ (· + ·) (proj_matmul_apply _ _ (flatRow b r) e) (proj_bias_apply β (flatRow b r) e)).trans ?_
    refine congrArg (· + β (ix1 e)) (Finset.sum_congr rfl fun d _ => ?_)
    exact congrArg (· * w (ix2 e d)) (k0_pay1_apply v0 b r d)

end Cert.KernelIdeal.ProjPayload

end
-- ==== Proof.ProjArrays.lean ====
/-
  The projection kernel's three result arrays as whole-array functions of its arguments.

  The grid has 8 points; point `t` reads sequence rows `512·t … 512·t + 511` of the input (all batches, all features) and
  the whole weights and biases, and writes the same rows of the three results. Every point writes back, the 8 blocks tile
  the sequence axis, and what point `t` writes is block `t` of one function of the arguments: the linear layer of Spec.lean.
-/
import proofs.«152282_j3487513444911_1_alg».proof.Proof.Gen.KernelIdeal.Frame
import proofs.«152282_j3487513444911_1_alg».proof.Proof.ProjPayload
import Idealize.ShloMosaic.Lib.Pipeline.Value

noncomputable section

namespace Cert.KernelIdeal.ProjArrays

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.ProjPayload

variable (V : (c : Dev nD) → (b : Ref sig .tc) → Buf (Elt Ideal) ((c : Thread nD τ).loc b))

/-- The zero offsets of the body's whole-buffer accesses, rank by rank. -/
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The block index maps over the 8 grid points: the input and the three results move along the sequence axis with
    the point, the weights and biases stay at block 0. -/
theorem block_indices : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ (win0_2.index t (0 : Fin 1) = 0)
    ∧ (win0_3.index t (0 : Fin 2) = 0 ∧ win0_3.index t (1 : Fin 2) = 0)
    ∧ (win0_4.index t (0 : Fin 1) = 0)
    ∧ (win0_5.index t (0 : Fin 2) = 0 ∧ win0_5.index t (1 : Fin 2) = 0)
    ∧ (win0_6.index t (0 : Fin 1) = 0)
    ∧ (win0_7.index t (0 : Fin 3) = 0 ∧ win0_7.index t (1 : Fin 3) = t.val ∧ win0_7.index t (2 : Fin 3) = 0)
    ∧ (win0_8.index t (0 : Fin 3) = 0 ∧ win0_8.index t (1 : Fin 3) = t.val ∧ win0_8.index t (2 : Fin 3) = 0)
    ∧ (win0_9.index t (0 : Fin 3) = 0 ∧ win0_9.index t (1 : Fin 3) = t.val ∧ win0_9.index t (2 : Fin 3) = 0) :=
  (by decide +kernel : ∀ t : Fin grid0.N, _)

/-- The input block of point `t` is sequence rows `512·t … 512·t + 511` of the input. -/
theorem input_block (c : Dev nD) (t : Fin cfg0.N) (x : S4x512x512.Idx) (k : S4x4096x512.Idx)
    (h0 : (k 0).val = (x 0).val) (h1 : (k 1).val = 512 * t.val + (x 1).val) (h2 : (k 2).val = (x 2).val) :
    (iblk0 V c 0 t : Vec Ideal S4x512x512 .f32) x = (V c main_arg0 : S4x4096x512.Idx → Elt Ideal .f32) k := by
  obtain ⟨⟨e0, e1, e2⟩, -⟩ := block_indices t
  unfold iblk0
  rw [View.read_apply]
  show (V c main_arg0 : S4x4096x512.Idx → Elt Ideal .f32) _ = _
  congr 1
  funext a
  apply Fin.ext
  match a with
  | ⟨0, _⟩ => show win0_0.index t (0 : Fin 3) * 4 + 1 * (x 0).val = (k 0).val; rw [e0, h0]; omega
  | ⟨1, _⟩ => show win0_0.index t (1 : Fin 3) * 512 + 1 * (x 1).val = (k 1).val; rw [e1, h1]; omega
  | ⟨2, _⟩ => show win0_0.index t (2 : Fin 3) * 512 + 1 * (x 2).val = (k 2).val; rw [e2, h2]; omega

/-- Window 1's block at every point is the whole of its weight. -/
theorem weight_block1 (c : Dev nD) (t : Fin cfg0.N) :
    (iblk0 V c 1 t : Vec Ideal S512x512 .f32) = (V c main_arg2 : S512x512.Idx → Elt Ideal .f32) := by
  obtain ⟨-, ⟨e0, e1⟩, -⟩ := block_indices t
  funext x
  unfold iblk0
  rw [View.read_apply]
  show (V c main_arg2 : S512x512.Idx → Elt Ideal .f32) _ = _
  congr 1
  funext a
  apply Fin.ext
  match a with
  | ⟨0, _⟩ => show win0_1.index t (0 : Fin 2) * 512 + 1 * (x 0).val = (x 0).val; rw [e0]; omega
  | ⟨1, _⟩ => show win0_1.index t (1 : Fin 2) * 512 + 1 * (x 1).val = (x 1).val; rw [e1]; omega

/-- Window 2's block at every point is the whole of its bias. -/
theorem bias_block2 (c : Dev nD) (t : Fin cfg0.N) :
    (iblk0 V c 2 t : Vec Ideal S512 .f32) = (V c main_arg3 : S512.Idx → Elt Ideal .f32) := by
  obtain ⟨-, -, e0, -⟩ := block_indices t
  funext x
  unfold iblk0
  rw [View.read_apply]
  show (V c main_arg3 : S512.Idx → Elt Ideal .f32) _ = _
  congr 1
  funext a
  apply Fin.ext
  match a with
  | ⟨0, _⟩ => show win0_2.index t (0 : Fin 1) * 512 + 1 * (x 0).val = (x 0).val; rw [e0]; omega

/-- Window 3's block at every point is the whole of its weight. -/
theorem weight_block3 (c : Dev nD) (t : Fin cfg0.N) :
    (iblk0 V c 3 t : Vec Ideal S512x512 .f32) = (V c main_arg4 : S512x512.Idx → Elt Ideal .f32) := by
  obtain ⟨-, -, -, ⟨e0, e1⟩, -⟩ := block_indices t
  funext x
  unfold iblk0
  rw [View.read_apply]
  show (V c main_arg4 : S512x512.Idx → Elt Ideal .f32) _ = _
  congr 1
  funext a
  apply Fin.ext
  match a with
  | ⟨0, _⟩ => show win0_3.index t (0 : Fin 2) * 512 + 1 * (x 0).val = (x 0).val; rw [e0]; omega
  | ⟨1, _⟩ => show win0_3.index t (1 : Fin 2) * 512 + 1 * (x 1).val = (x 1).val; rw [e1]; omega

/-- Window 4's block at every point is the whole of its bias. -/
theorem bias_block4 (c : Dev nD) (t : Fin cfg0.N) :
    (iblk0 V c 4 t : Vec Ideal S512 .f32) = (V c main_arg5 : S512.Idx → Elt Ideal .f32) := by
  obtain ⟨-, -, -, -, e0, -⟩ := block_indices t
  funext x
  unfold iblk0
  rw [View.read_apply]
  show (V c main_arg5 : S512.Idx → Elt Ideal .f32) _ = _
  congr 1
  funext a
  apply Fin.ext
  match a with
  | ⟨0, _⟩ => show win0_4.index t (0 : Fin 1) * 512 + 1 * (x 0).val = (x 0).val; rw [e0]; omega

/-- Window 5's block at every point is the whole of its weight. -/
theorem weight_block5 (c : Dev nD) (t : Fin cfg0.N) :
    (iblk0 V c 5 t : Vec Ideal S512x512 .f32) = (V c main_arg6 : S512x512.Idx → Elt Ideal .f32) := by
  obtain ⟨-, -, -, -, -, ⟨e0, e1⟩, -⟩ := block_indices t
  funext x
  unfold iblk0
  rw [View.read_apply]
  show (V c main_arg6 : S512x512.Idx → Elt Ideal .f32) _ = _
  congr 1
  funext a
  apply Fin.ext
  match a with
  | ⟨0, _⟩ => show win0_5.index t (0 : Fin 2) * 512 + 1 * (x 0).val = (x 0).val; rw [e0]; omega
  | ⟨1, _⟩ => show win0_5.index t (1 : Fin 2) * 512 + 1 * (x 1).val = (x 1).val; rw [e1]; omega

/-- Window 6's block at every point is the whole of its bias. -/
theorem bias_block6 (c : Dev nD) (t : Fin cfg0.N) :
    (iblk0 V c 6 t : Vec Ideal S512 .f32) = (V c main_arg7 : S512.Idx → Elt Ideal .f32) := by
  obtain ⟨-, -, -, -, -, -, e0, -⟩ := block_indices t
  funext x
  unfold iblk0
  rw [View.read_apply]
  show (V c main_arg7 : S512.Idx → Elt Ideal .f32) _ = _
  congr 1
  funext a
  apply Fin.ext
  match a with
  | ⟨0, _⟩ => show win0_6.index t (0 : Fin 1) * 512 + 1 * (x 0).val = (x 0).val; rw [e0]; omega

/-- One element of the block a point computes is the linear layer at the element's place in the array: the block's
    rows are rows `512·n …` of the input, so row `r` of the block is sequence position `512·n + r`. -/
theorem payload_elem (x0 : Vec Ideal S4x512x512 .f32) (w : Vec Ideal S512x512 .f32) (β : Vec Ideal S512 .f32)
    (X : S4x4096x512.Idx → EReal) (n : Nat)
    (hx : ∀ (b : Fin 4) (r : Fin 512) (d : Fin 512) (k : S4x4096x512.Idx), (k 0).val = b.val →
      (k 1).val = 512 * n + r.val → (k 2).val = d.val → x0 (ix3 b r d) = X k)
    (b : Fin 4) (r : Fin 512) (e : Fin 512) (ib : Fin 4) (is : Fin 4096) (ie : Fin 512)
    (h0 : ib.val = b.val) (h1 : is.val = 512 * n + r.val) (h2 : ie.val = e.val) :
    k0_pay2 (F := Ideal) x0 w β (ix3 b r e) = Cert.Spec.proj X w β ib is ie := by
  obtain rfl : ie = e := Fin.ext h2
  rw [k0_pay2_apply]
  unfold Cert.Spec.proj
  congr 1
  refine Finset.sum_congr rfl fun d _ => ?_
  congr 1
  exact hx b r d (ix3 ib is d) h0 h1 rfl

/-- What point `t` writes back of the queries is block `t` of the linear layer of the input with the first weight and bias. -/
theorem queries_block (c : Dev nD) (t : Fin cfg0.N) :
    (dat0 (F := Ideal) V c).flushed 7 t = ((cfg0.win 7).blk t).view.read (Elt Ideal)
      (Cert.Spec.projArr (V c main_arg0) (V c main_arg2) (V c main_arg3)) := by
  show (cfg0.win 7).cut (grid0.coords t) ((dat0 (F := Ideal) V c).after 7 t) = _
  rw [after0_7]
  unfold out0_7
  rw [View.canon_unit_zero zero3]
  simp only [View.ld_unit_zero (S := S4x512x512) zero3, View.ld_unit_zero (S := S512x512) zero2, View.ld_unit_zero (S := S512) zero1]
  rw [weight_block1, bias_block2]
  obtain ⟨-, -, -, -, -, -, -, ⟨e0, e1, e2⟩, -⟩ := block_indices t
  funext j
  rw [View.read_apply]
  obtain ⟨b, r, e, rfl⟩ : ∃ (b : Fin 4) (r : Fin 512) (e : Fin 512), j = ix3 b r e := ⟨j 0, j 1, j 2, eq_ix3 j⟩
  show k0_pay2 (F := Ideal) (iblk0 V c 0 t) (V c main_arg2) (V c main_arg3) (ix3 b r e)
    = Cert.Spec.proj (V c main_arg0) (V c main_arg2) (V c main_arg3) (((cfg0.win 7).blk t).view.emb (ix3 b r e) 0)
        (((cfg0.win 7).blk t).view.emb (ix3 b r e) 1) (((cfg0.win 7).blk t).view.emb (ix3 b r e) 2)
  refine payload_elem _ _ _ (V c main_arg0) t.val (fun b r d k => input_block V c t (ix3 b r d) k) b r e _ _ _ ?_ ?_ ?_
  · show win0_7.index t (0 : Fin 3) * 4 + 1 * b.val = b.val
    rw [e0]; omega
  · show win0_7.index t (1 : Fin 3) * 512 + 1 * r.val = 512 * t.val + r.val
    rw [e1]; omega
  · show win0_7.index t (2 : Fin 3) * 512 + 1 * e.val = e.val
    rw [e2]; omega

/-- What point `t` writes back of the keys is block `t` of the linear layer of the input with the second weight and bias. -/
theorem keys_block (c : Dev nD) (t : Fin cfg0.N) :
    (dat0 (F := Ideal) V c).flushed 8 t = ((cfg0.win 8).blk t).view.read (Elt Ideal)
      (Cert.Spec.projArr (V c main_arg0) (V c main_arg4) (V c main_arg5)) := by
  show (cfg0.win 8).cut (grid0.coords t) ((dat0 (F := Ideal) V c).after 8 t) = _
  rw [after0_8]
  unfold out0_8
  rw [View.canon_unit_zero zero3]
  simp only [View.ld_unit_zero (S := S4x512x512) zero3, View.ld_unit_zero (S := S512x512) zero2, View.ld_unit_zero (S := S512) zero1]
  rw [k0_pay3_eq, weight_block3, bias_block4]
  obtain ⟨-, -, -, -, -, -, -, -, ⟨e0, e1, e2⟩, -⟩ := block_indices t
  funext j
  rw [View.read_apply]
  obtain ⟨b, r, e, rfl⟩ : ∃ (b : Fin 4) (r : Fin 512) (e : Fin 512), j = ix3 b r e := ⟨j 0, j 1, j 2, eq_ix3 j⟩
  show k0_pay2 (F := Ideal) (iblk0 V c 0 t) (V c main_arg4) (V c main_arg5) (ix3 b r e)
    = Cert.Spec.proj (V c main_arg0) (V c main_arg4) (V c main_arg5) (((cfg0.win 8).blk t).view.emb (ix3 b r e) 0)
        (((cfg0.win 8).blk t).view.emb (ix3 b r e) 1) (((cfg0.win 8).blk t).view.emb (ix3 b r e) 2)
  refine payload_elem _ _ _ (V c main_arg0) t.val (fun b r d k => input_block V c t (ix3 b r d) k) b r e _ _ _ ?_ ?_ ?_
  · show win0_8.index t (0 : Fin 3) * 4 + 1 * b.val = b.val
    rw [e0]; omega
  · show win0_8.index t (1 : Fin 3) * 512 + 1 * r.val = 512 * t.val + r.val
    rw [e1]; omega
  · show win0_8.index t (2 : Fin 3) * 512 + 1 * e.val = e.val
    rw [e2]; omega

/-- What point `t` writes back of the values is block `t` of the linear layer of the input with the third weight and bias. -/
theorem values_block (c : Dev nD) (t : Fin cfg0.N) :
    (dat0 (F := Ideal) V c).flushed 9 t = ((cfg0.win 9).blk t).view.read (Elt Ideal)
      (Cert.Spec.projArr (V c main_arg0) (V c main_arg6) (V c main_arg7)) := by
  show (cfg0.win 9).cut (grid0.coords t) ((dat0 (F := Ideal) V c).after 9 t) = _
  rw [after0_9]
  unfold out0_9
  rw [View.canon_unit_zero zero3]
  simp only [View.ld_unit_zero (S := S4x512x512) zero3, View.ld_unit_zero (S := S512x512) zero2, View.ld_unit_zero (S := S512) zero1]
  rw [k0_pay4_eq, weight_block5, bias_block6]
  obtain ⟨-, -, -, -, -, -, -, -, -, e0, e1, e2⟩ := block_indices t
  funext j
  rw [View.read_apply]
  obtain ⟨b, r, e, rfl⟩ : ∃ (b : Fin 4) (r : Fin 512) (e : Fin 512), j = ix3 b r e := ⟨j 0, j 1, j 2, eq_ix3 j⟩
  show k0_pay2 (F := Ideal) (iblk0 V c 0 t) (V c main_arg6) (V c main_arg7) (ix3 b r e)
    = Cert.Spec.proj (V c main_arg0) (V c main_arg6) (V c main_arg7) (((cfg0.win 9).blk t).view.emb (ix3 b r e) 0)
        (((cfg0.win 9).blk t).view.emb (ix3 b r e) 1) (((cfg0.win 9).blk t).view.emb (ix3 b r e) 2)
  refine payload_elem _ _ _ (V c main_arg0) t.val (fun b r d k => input_block V c t (ix3 b r d) k) b r e _ _ _ ?_ ?_ ?_
  · show win0_9.index t (0 : Fin 3) * 4 + 1 * b.val = b.val
    rw [e0]; omega
  · show win0_9.index t (1 : Fin 3) * 512 + 1 * r.val = 512 * t.val + r.val
    rw [e1]; omega
  · show win0_9.index t (2 : Fin 3) * 512 + 1 * e.val = e.val
    rw [e2]; omega

/-- Every index of the queries array is in the block of the point its sequence position falls in: point `(i 1) / 512`. -/
theorem queries_cover (i : S4x4096x512.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 512 := (i 2).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, -, -, -, ⟨e0, e1, e2⟩, -⟩ := block_indices t
  refine ⟨t, flush0_7 t, ?_⟩
  show i ∈ ((View.whole main_v0_0).slice (win0_7.rect t)).set
  rw [View.set_slice_whole, Rect.mem_set_unit]
  intro a
  match a with
  | ⟨0, _⟩ =>
    show win0_7.index t (0 : Fin 3) * 4 ≤ (i 0).val ∧ (i 0).val < win0_7.index t (0 : Fin 3) * 4 + 4
    rw [e0]; omega
  | ⟨1, _⟩ =>
    show win0_7.index t (1 : Fin 3) * 512 ≤ (i 1).val ∧ (i 1).val < win0_7.index t (1 : Fin 3) * 512 + 512
    rw [e1, ht]; omega
  | ⟨2, _⟩ =>
    show win0_7.index t (2 : Fin 3) * 512 ≤ (i 2).val ∧ (i 2).val < win0_7.index t (2 : Fin 3) * 512 + 512
    rw [e2]; omega

/-- Every index of the keys array is in the block of the point its sequence position falls in. -/
theorem keys_cover (i : S4x4096x512.Idx) :
    ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 512 := (i 2).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, -, -, -, -, ⟨e0, e1, e2⟩, -⟩ := block_indices t
  refine ⟨t, flush0_8 t, ?_⟩
  show i ∈ ((View.whole main_v0_1).slice (win0_8.rect t)).set
  rw [View.set_slice_whole, Rect.mem_set_unit]
  intro a
  match a with
  | ⟨0, _⟩ =>
    show win0_8.index t (0 : Fin 3) * 4 ≤ (i 0).val ∧ (i 0).val < win0_8.index t (0 : Fin 3) * 4 + 4
    rw [e0]; omega
  | ⟨1, _⟩ =>
    show win0_8.index t (1 : Fin 3) * 512 ≤ (i 1).val ∧ (i 1).val < win0_8.index t (1 : Fin 3) * 512 + 512
    rw [e1, ht]; omega
  | ⟨2, _⟩ =>
    show win0_8.index t (2 : Fin 3) * 512 ≤ (i 2).val ∧ (i 2).val < win0_8.index t (2 : Fin 3) * 512 + 512
    rw [e2]; omega

/-- Every index of the values array is in the block of the point its sequence position falls in. -/
theorem values_cover (i : S4x4096x512.Idx) :
    ∃ t : Fin cfg0.N, (cfg0.win 9).flush t = true ∧ i ∈ ((cfg0.win 9).blk t).view.set := by
  have h0 : (i 0).val < 4 := (i 0).isLt
  have h1 : (i 1).val < 4096 := (i 1).isLt
  have h2 : (i 2).val < 512 := (i 2).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, -, -, -, -, -, e0, e1, e2⟩ := block_indices t
  refine ⟨t, flush0_9 t, ?_⟩
  show i ∈ ((View.whole main_v0_2).slice (win0_9.rect t)).set
  rw [View.set_slice_whole, Rect.mem_set_unit]
  intro a
  match a with
  | ⟨0, _⟩ =>
    show win0_9.index t (0 : Fin 3) * 4 ≤ (i 0).val ∧ (i 0).val < win0_9.index t (0 : Fin 3) * 4 + 4
    rw [e0]; omega
  | ⟨1, _⟩ =>
    show win0_9.index t (1 : Fin 3) * 512 ≤ (i 1).val ∧ (i 1).val < win0_9.index t (1 : Fin 3) * 512 + 512
    rw [e1, ht]; omega
  | ⟨2, _⟩ =>
    show win0_9.index t (2 : Fin 3) * 512 ≤ (i 2).val ∧ (i 2).val < win0_9.index t (2 : Fin 3) * 512 + 512
    rw [e2]; omega

/-- The queries: the linear layer of the input with the first weight and bias. -/
theorem arr7 (c : Dev nD) :
    (dat0 (F := Ideal) V c).arrAt 7 cfg0.N = Cert.Spec.projArr (V c main_arg0) (V c main_arg2) (V c main_arg3) :=
  (dat0 (F := Ideal) V c).arrAt_eq_of_cover 7 (Cert.Spec.projArr (V c main_arg0) (V c main_arg2) (V c main_arg3))
    (fun t _ => queries_block V c t) queries_cover

/-- The keys: with the second weight and bias. -/
theorem arr8 (c : Dev nD) :
    (dat0 (F := Ideal) V c).arrAt 8 cfg0.N = Cert.Spec.projArr (V c main_arg0) (V c main_arg4) (V c main_arg5) :=
  (dat0 (F := Ideal) V c).arrAt_eq_of_cover 8 (Cert.Spec.projArr (V c main_arg0) (V c main_arg4) (V c main_arg5))
    (fun t _ => keys_block V c t) keys_cover

/-- The values: with the third weight and bias. -/
theorem arr9 (c : Dev nD) :
    (dat0 (F := Ideal) V c).arrAt 9 cfg0.N = Cert.Spec.projArr (V c main_arg0) (V c main_arg6) (V c main_arg7) :=
  (dat0 (F := Ideal) V c).arrAt_eq_of_cover 9 (Cert.Spec.projArr (V c main_arg0) (V c main_arg6) (V c main_arg7))
    (fun t _ => values_block V c t) values_cover

end Cert.KernelIdeal.ProjArrays

end
-- ==== Proof.AttnBody.lean ====
/-
  What the attention kernel's body leaves in the output tile's buffer, in its two cases, as values.

  The body's last store writes the accumulating sum `k1_pay2` of the loaded query, key, value and bias tiles and of what it
  reads from the output tile. At the first key tile the body has stored the zero tile first, and reads that back; at
  every later key tile it reads what the tile held when the body began. In both cases the last store covers the whole
  tile, so the tile ends at that store's value.
-/
import proofs.«152282_j3487513444911_1_alg».proof.Proof.Gen.KernelIdeal.Frame
import Idealize.ShloMosaic.Lib.Pipeline.Value
import Idealize.ShloMosaic.Lib.Tactic

noncomputable section

namespace Cert.KernelIdeal.AttnBody

open Cert.KernelIdeal Cert.KernelIdeal.Gen Idealize.ShloMosaic Idealize.ShloMosaic.TcCoe Idealize.SL.Sem

variable {F : FTy → Type} [FloatOps F]

/-- The zero offsets of a rank-3 tile, as the constant function. -/
theorem offsets_zero3 : (![0, 0, 0] : Fin 3 → Nat) = fun _ => 0 := funext fun a => by fin_cases a <;> rfl

/-- At the first key tile the body leaves the accumulating store's value over the zero tile it has just stored. -/
theorem out1_A_4_eq (c : Dev nD) (i : grid1.Coords) (arg2 : Memref sig .tc .vmem S4x1024x512 .bf16) (harg2 : arg2.IsWhole)
    (arg3 : Memref sig .tc .vmem S4x512x512 .bf16) (harg3 : arg3.IsWhole) (arg4 : Memref sig .tc .vmem S4x512x512 .bf16) (harg4 : arg4.IsWhole)
    (arg5 : Memref sig .tc .vmem S1x1024x512 .f32) (harg5 : arg5.IsWhole) (arg6 : Memref sig .tc .vmem S4x1024x512 .f32) (harg6 : arg6.IsWhole)
    (hc0 : cond1_0 i) (x0 : Vec F S4x1024x512 .bf16) (x1 : Vec F S4x512x512 .bf16) (x2 : Vec F S4x512x512 .bf16) (x3 : Vec F S1x1024x512 .f32) :
    out1_A_4 c i arg2 harg2 arg3 harg3 arg4 harg4 arg5 harg5 arg6 harg6 hc0 x0 x1 x2 x3
      = k1_pay2 x0 x1 x2 x3 (k1_pay1 (F := F)) := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S4x1024x512) offsets_zero3, View.readCov_unit_zero (S := S4x1024x512) _ offsets_zero3]
  simp only [View.readAt_eq_ld, harg2.read_unread, harg3.read_unread, harg4.read_unread, harg5.read_unread,
    View.ld_unit_zero (S := S4x1024x512) offsets_zero3, View.ld_unit_zero (S := S4x512x512) offsets_zero3,
    View.ld_unit_zero (S := S1x1024x512) offsets_zero3]

/-- At every later key tile it leaves the accumulating store's value over what the tile held. -/
theorem out1_B_4_eq (c : Dev nD) (i : grid1.Coords) (arg2 : Memref sig .tc .vmem S4x1024x512 .bf16) (harg2 : arg2.IsWhole)
    (arg3 : Memref sig .tc .vmem S4x512x512 .bf16) (harg3 : arg3.IsWhole) (arg4 : Memref sig .tc .vmem S4x512x512 .bf16) (harg4 : arg4.IsWhole)
    (arg5 : Memref sig .tc .vmem S1x1024x512 .f32) (harg5 : arg5.IsWhole) (arg6 : Memref sig .tc .vmem S4x1024x512 .f32) (harg6 : arg6.IsWhole)
    (hc0 : ¬cond1_0 i) (x0 : Vec F S4x1024x512 .bf16) (x1 : Vec F S4x512x512 .bf16) (x2 : Vec F S4x512x512 .bf16) (x3 : Vec F S1x1024x512 .f32)
    (xo4 : Vec F S4x1024x512 .f32) :
    out1_B_4 c i arg2 harg2 arg3 harg3 arg4 harg4 arg5 harg5 arg6 harg6 hc0 x0 x1 x2 x3 xo4
      = k1_pay2 x0 x1 x2 x3 xo4 := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero offsets_zero3]
  simp only [View.readAt_eq_ld, harg2.read_unread, harg3.read_unread, harg4.read_unread, harg5.read_unread, harg6.read_unread,
    View.ld_unit_zero (S := S4x1024x512) offsets_zero3, View.ld_unit_zero (S := S4x512x512) offsets_zero3,
    View.ld_unit_zero (S := S1x1024x512) offsets_zero3]

end Cert.KernelIdeal.AttnBody

end
-- ==== Proof.AttnPayload.lean ====
/-
  The attention kernel's arithmetic at one output element, over the extended reals.

  At a grid point the body holds a [4, 1024, 512] tile of queries, [4, 512, 512] tiles of keys and values, the
  [1, 1024, 512] tile of the score bias for these queries and keys, and the [4, 1024, 512] output tile it accumulates into.
  It adds to the tile, per batch `b`, query row `r` and feature `d`, the sum over the tile's 512 keys `k'` of
  `logistic ((∑ e, (Q[b, r, e] · scale) · K[b, k', e]) + bias[0, r, k']) · V[b, k', d]`.
  The two batched products into zero accumulators are plain sums over the contracted axis, the bias tile is repeated over
  the batches, and the changes of float format are identities.
-/
import proofs.«152282_j3487513444911_1_alg».proof.Proof.Gen.KernelIdeal.Skeleton
import proofs.«152282_j3487513444911_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnPayload

open Cert.KernelIdeal Cert.KernelIdeal.Gen Idealize.ShloMosaic Idealize.ShloMosaic.ValueIdx

/-! ## The scores: queries against keys, batched over axis 0, contracting the feature axis of both -/

theorem scores_lhs_0 (i : S4x1024x512.Idx) (q : dot_S4x1024x512_S4x512x512_S4x1024x512_2_2_1_1_0_0.contr.Idx) :
    (dot_S4x1024x512_S4x512x512_S4x1024x512_2_2_1_1_0_0.lhsIdx i q 0).val = (i 0).val := by
  unfold DotDims.lhsIdx
  rw [dif_pos (show (0 : Fin S4x1024x512.rank) ∈ dot_S4x1024x512_S4x512x512_S4x1024x512_2_2_1_1_0_0.lhsBatch by decide)]
  rfl
theorem scores_lhs_1 (i : S4x1024x512.Idx) (q : dot_S4x1024x512_S4x512x512_S4x1024x512_2_2_1_1_0_0.contr.Idx) :
    (dot_S4x1024x512_S4x512x512_S4x1024x512_2_2_1_1_0_0.lhsIdx i q 1).val = (i 1).val := by
  unfold DotDims.lhsIdx
  rw [dif_neg (show ¬(1 : Fin S4x1024x512.rank) ∈ dot_S4x1024x512_S4x512x512_S4x1024x512_2_2_1_1_0_0.lhsBatch by decide), dif_pos (show (1 : Fin S4x1024x512.rank) ∈ dot_S4x1024x512_S4x512x512_S4x1024x512_2_2_1_1_0_0.lhsNonContracting by decide)]
  rfl
theorem scores_lhs_2 (i : S4x1024x512.Idx) (q : dot_S4x1024x512_S4x512x512_S4x1024x512_2_2_1_1_0_0.contr.Idx) :
    (dot_S4x1024x512_S4x512x512_S4x1024x512_2_2_1_1_0_0.lhsIdx i q 2).val = (q ⟨0, by decide⟩).val :=
  dot_S4x1024x512_S4x512x512_S4x1024x512_2_2_1_1_0_0.lhsIdx_val_of_single rfl i q
theorem scores_rhs_0 (i : S4x1024x512.Idx) (q : dot_S4x1024x512_S4x512x512_S4x1024x512_2_2_1_1_0_0.contr.Idx) :
    (dot_S4x1024x512_S4x512x512_S4x1024x512_2_2_1_1_0_0.rhsIdx i q 0).val = (i 0).val := by
  unfold DotDims.rhsIdx
  rw [dif_pos (show (0 : Fin S4x512x512.rank) ∈ dot_S4x1024x512_S4x512x512_S4x1024x512_2_2_1_1_0_0.rhsBatch by decide)]
  rfl
theorem scores_rhs_1 (i : S4x1024x512.Idx) (q : dot_S4x1024x512_S4x512x512_S4x1024x512_2_2_1_1_0_0.contr.Idx) :
    (dot_S4x1024x512_S4x512x512_S4x1024x512_2_2_1_1_0_0.rhsIdx i q 1).val = (i 2).val := by
  unfold DotDims.rhsIdx
  rw [dif_neg (show ¬(1 : Fin S4x512x512.rank) ∈ dot_S4x1024x512_S4x512x512_S4x1024x512_2_2_1_1_0_0.rhsBatch by decide), dif_pos (show (1 : Fin S4x512x512.rank) ∈ dot_S4x1024x512_S4x512x512_S4x1024x512_2_2_1_1_0_0.rhsNonContracting by decide)]
  rfl
theorem scores_rhs_2 (i : S4x1024x512.Idx) (q : dot_S4x1024x512_S4x512x512_S4x1024x512_2_2_1_1_0_0.contr.Idx) :
    (dot_S4x1024x512_S4x512x512_S4x1024x512_2_2_1_1_0_0.rhsIdx i q 2).val = (q ⟨0, by decide⟩).val :=
  dot_S4x1024x512_S4x512x512_S4x1024x512_2_2_1_1_0_0.rhsIdx_val_of_single rfl i q

/-- The score of query row `r` against key `k'` in batch `b`: the sum over the 512 features of the products. -/
theorem scores_apply (lhs : FVec Ideal S4x1024x512 .bf16) (rhs : FVec Ideal S4x512x512 .bf16) (b : Fin 4) (r : Fin 1024) (k' : Fin 512) :
    matmul dot_S4x1024x512_S4x512x512_S4x1024x512_2_2_1_1_0_0 none lhs rhs (constant (F := Ideal) S4x1024x512 .f32 0x00000000#32) (ix3 b r k')
      = ∑ e : Fin 512, lhs (ix3 b r e) * rhs (ix3 b k' e) := by
  simp only [matmul]
  rw [Ideal.matmul_constant_zero_apply, ← Equiv.sum_comp (contrEquiv1 dot_S4x1024x512_S4x512x512_S4x1024x512_2_2_1_1_0_0 512 rfl rfl).symm]
  refine Finset.sum_congr rfl fun e _ => ?_
  have hk := contrEquiv1_symm_val dot_S4x1024x512_S4x512x512_S4x1024x512_2_2_1_1_0_0 512 rfl rfl e
  have el : dot_S4x1024x512_S4x512x512_S4x1024x512_2_2_1_1_0_0.lhsIdx (ix3 b r k') ((contrEquiv1 dot_S4x1024x512_S4x512x512_S4x1024x512_2_2_1_1_0_0 512 rfl rfl).symm e) = ix3 b r e := funext fun a => Fin.ext (by
    match a with
    | ⟨0, _⟩ => exact scores_lhs_0 _ _
    | ⟨1, _⟩ => exact scores_lhs_1 _ _
    | ⟨2, _⟩ => exact (scores_lhs_2 _ _).trans hk)
  have er : dot_S4x1024x512_S4x512x512_S4x1024x512_2_2_1_1_0_0.rhsIdx (ix3 b r k') ((contrEquiv1 dot_S4x1024x512_S4x512x512_S4x1024x512_2_2_1_1_0_0 512 rfl rfl).symm e) = ix3 b k' e := funext fun a => Fin.ext (by
    match a with
    | ⟨0, _⟩ => exact scores_rhs_0 _ _
    | ⟨1, _⟩ => exact scores_rhs_1 _ _
    | ⟨2, _⟩ => exact (scores_rhs_2 _ _).trans hk)
  rw [el, er]

/-! ## The weighted values: weights against values, batched over axis 0, contracting the key axis -/

theorem weighted_lhs_0 (i : S4x1024x512.Idx) (q : dot_S4x1024x512_S4x512x512_S4x1024x512_2_1_1_2_0_0.contr.Idx) :
    (dot_S4x1024x512_S4x512x512_S4x1024x512_2_1_1_2_0_0.lhsIdx i q 0).val = (i 0).val := by
  unfold DotDims.lhsIdx
  rw [dif_pos (show (0 : Fin S4x1024x512.rank) ∈ dot_S4x1024x512_S4x512x512_S4x1024x512_2_1_1_2_0_0.lhsBatch by decide)]
  rfl
theorem weighted_lhs_1 (i : S4x1024x512.Idx) (q : dot_S4x1024x512_S4x512x512_S4x1024x512_2_1_1_2_0_0.contr.Idx) :
    (dot_S4x1024x512_S4x512x512_S4x1024x512_2_1_1_2_0_0.lhsIdx i q 1).val = (i 1).val := by
  unfold DotDims.lhsIdx
  rw [dif_neg (show ¬(1 : Fin S4x1024x512.rank) ∈ dot_S4x1024x512_S4x512x512_S4x1024x512_2_1_1_2_0_0.lhsBatch by decide), dif_pos (show (1 : Fin S4x1024x512.rank) ∈ dot_S4x1024x512_S4x512x512_S4x1024x512_2_1_1_2_0_0.lhsNonContracting by decide)]
  rfl
theorem weighted_lhs_2 (i : S4x1024x512.Idx) (q : dot_S4x1024x512_S4x512x512_S4x1024x512_2_1_1_2_0_0.contr.Idx) :
    (dot_S4x1024x512_S4x512x512_S4x1024x512_2_1_1_2_0_0.lhsIdx i q 2).val = (q ⟨0, by decide⟩).val :=
  dot_S4x1024x512_S4x512x512_S4x1024x512_2_1_1_2_0_0.lhsIdx_val_of_single rfl i q
theorem weighted_rhs_0 (i : S4x1024x512.Idx) (q : dot_S4x1024x512_S4x512x512_S4x1024x512_2_1_1_2_0_0.contr.Idx) :
    (dot_S4x1024x512_S4x512x512_S4x1024x512_2_1_1_2_0_0.rhsIdx i q 0).val = (i 0).val := by
  unfold DotDims.rhsIdx
  rw [dif_pos (show (0 : Fin S4x512x512.rank) ∈ dot_S4x1024x512_S4x512x512_S4x1024x512_2_1_1_2_0_0.rhsBatch by decide)]
  rfl
theorem weighted_rhs_1 (i : S4x1024x512.Idx) (q : dot_S4x1024x512_S4x512x512_S4x1024x512_2_1_1_2_0_0.contr.Idx) :
    (dot_S4x1024x512_S4x512x512_S4x1024x512_2_1_1_2_0_0.rhsIdx i q 1).val = (q ⟨0, by decide⟩).val :=
  dot_S4x1024x512_S4x512x512_S4x1024x512_2_1_1_2_0_0.rhsIdx_val_of_single rfl i q
theorem weighted_rhs_2 (i : S4x1024x512.Idx) (q : dot_S4x1024x512_S4x512x512_S4x1024x512_2_1_1_2_0_0.contr.Idx) :
    (dot_S4x1024x512_S4x512x512_S4x1024x512_2_1_1_2_0_0.rhsIdx i q 2).val = (i 2).val := by
  unfold DotDims.rhsIdx
  rw [dif_neg (show ¬(2 : Fin S4x512x512.rank) ∈ dot_S4x1024x512_S4x512x512_S4x1024x512_2_1_1_2_0_0.rhsBatch by decide), dif_pos (show (2 : Fin S4x512x512.rank) ∈ dot_S4x1024x512_S4x512x512_S4x1024x512_2_1_1_2_0_0.rhsNonContracting by decide)]
  rfl

/-- Feature `d` of the weighted values for query row `r` in batch `b`: the sum over the 512 keys of weight times value. -/
theorem weighted_apply (lhs : FVec Ideal S4x1024x512 .bf16) (rhs : FVec Ideal S4x512x512 .bf16) (b : Fin 4) (r : Fin 1024) (d : Fin 512) :
    matmul dot_S4x1024x512_S4x512x512_S4x1024x512_2_1_1_2_0_0 none lhs rhs (constant (F := Ideal) S4x1024x512 .f32 0x00000000#32) (ix3 b r d)
      = ∑ k' : Fin 512, lhs (ix3 b r k') * rhs (ix3 b k' d) := by
  simp only [matmul]
  rw [Ideal.matmul_constant_zero_apply, ← Equiv.sum_comp (contrEquiv1 dot_S4x1024x512_S4x512x512_S4x1024x512_2_1_1_2_0_0 512 rfl rfl).symm]
  refine Finset.sum_congr rfl fun k' _ => ?_
  have hk := contrEquiv1_symm_val dot_S4x1024x512_S4x512x512_S4x1024x512_2_1_1_2_0_0 512 rfl rfl k'
  have el : dot_S4x1024x512_S4x512x512_S4x1024x512_2_1_1_2_0_0.lhsIdx (ix3 b r d) ((contrEquiv1 dot_S4x1024x512_S4x512x512_S4x1024x512_2_1_1_2_0_0 512 rfl rfl).symm k') = ix3 b r k' := funext fun a => Fin.ext (by
    match a with
    | ⟨0, _⟩ => exact weighted_lhs_0 _ _
    | ⟨1, _⟩ => exact weighted_lhs_1 _ _
    | ⟨2, _⟩ => exact (weighted_lhs_2 _ _).trans hk)
  have er : dot_S4x1024x512_S4x512x512_S4x1024x512_2_1_1_2_0_0.rhsIdx (ix3 b r d) ((contrEquiv1 dot_S4x1024x512_S4x512x512_S4x1024x512_2_1_1_2_0_0 512 rfl rfl).symm k') = ix3 b k' d := funext fun a => Fin.ext (by
    match a with
    | ⟨0, _⟩ => exact weighted_rhs_0 _ _
    | ⟨1, _⟩ => exact (weighted_rhs_1 _ _).trans hk
    | ⟨2, _⟩ => exact weighted_rhs_2 _ _)
  rw [el, er]

/-- The bias tile repeated over the four batches reads, at `(b, r, k')`, the tile at `(0, r, k')`. -/
theorem bias_apply (x : Vec Ideal S1x1024x512 .f32) (b : Fin 4) (r : Fin 1024) (k' : Fin 512) :
    broadcastTo S4x1024x512 x broadcasts_S1x1024x512_S4x1024x512 (ix3 b r k') = x (ix3 (0 : Fin 1) r k') := by
  refine broadcastTo_apply x _ _ _ fun a => ?_
  match a with
  | ⟨0, _⟩ => rfl
  | ⟨1, _⟩ => rfl
  | ⟨2, _⟩ => rfl

/-- The zero tile is zero at every element. -/
theorem k1_pay1_apply (i : S4x1024x512.Idx) : k1_pay1 (F := Ideal) i = 0 := by
  unfold k1_pay1
  exact Ideal.ofBits_zero_f32

/-- The accumulating store's value at element `(b, r, d)`: what the tile held there, plus the 512 keys' contributions. -/
theorem k1_pay2_apply (x0 : Vec Ideal S4x1024x512 .bf16) (x1 : Vec Ideal S4x512x512 .bf16) (x2 : Vec Ideal S4x512x512 .bf16)
    (x3 : Vec Ideal S1x1024x512 .f32) (xo : Vec Ideal S4x1024x512 .f32) (b : Fin 4) (r : Fin 1024) (d : Fin 512) :
    k1_pay2 (F := Ideal) x0 x1 x2 x3 xo (ix3 b r d)
      = xo (ix3 b r d) + ∑ k' : Fin 512,
          Ideal.logistic ((∑ e : Fin 512, (x0 (ix3 b r e) * Cert.Spec.scale) * x1 (ix3 b k' e)) + x3 (ix3 (0 : Fin 1) r k'))
            * x2 (ix3 b k' d) := by
  unfold k1_pay2
  refine (addf_apply _ _ _).trans ?_
  refine congrArg₂ (· + ·) ?_ ?_
  · exact congrFun (shapeCast_self xo _) _
  · refine (weighted_apply _ _ b r d).trans ?_
    refine Finset.sum_congr rfl fun k' _ => ?_
    refine congrArg₂ (· * ·) ?_ ?_
    · refine (truncf_apply (ψ := .bf16) _ bitsLt_bf16_f32 _).trans ?_
      show Ideal.logistic (addf (F := Ideal) (φ := .f32) _ _ (ix3 b r k')) = _
      refine congrArg Ideal.logistic ?_
      refine (addf_apply _ _ _).trans ?_
      refine congrArg₂ (· + ·) ?_ (bias_apply x3 b r k')
      refine (scores_apply _ _ b r k').trans ?_
      refine Finset.sum_congr rfl fun e _ => ?_
      refine congrArg₂ (· * ·) ?_ (congrFun (shapeCast_self x1 _) _)
      refine (truncf_apply (ψ := .bf16) _ bitsLt_bf16_f32 _).trans ?_
      refine (mulf_apply _ _ _).trans ?_
      refine congrArg₂ (· * ·) ?_ rfl
      refine (extf_apply (ψ := .f32) _ bitsLt_bf16_f32 _).trans ?_
      exact congrFun (shapeCast_self x0 _) _
    · exact congrFun (shapeCast_self x2 _) _

end Cert.KernelIdeal.AttnPayload

end
-- ==== Proof.AttnFold.lean ====
/-
  What the attention kernel's output tile holds after each grid point, at one element.

  Point `t = 8·qi + ki` works on query rows `1024·qi …` and keys `512·ki …`. The tile is reset to zero at `ki = 0` and each
  point adds its key tile's contribution, so after point `t` element `(b, r, d)` of the tile is zero plus the
  contributions of key tiles `0 … ki` to output element `(b, 1024·qi + r, d)`: a fold over the run of points that share
  the query tile, opened at an index as a sum over the tiles done so far.
-/
import proofs.«152282_j3487513444911_1_alg».proof.Proof.Gen.KernelIdeal.Frame
import proofs.«152282_j3487513444911_1_alg».proof.Proof.AttnBody
import proofs.«152282_j3487513444911_1_alg».proof.Proof.AttnPayload
import Idealize.ShloMosaic.Lib.Pipeline.Value

noncomputable section

namespace Cert.KernelIdeal.AttnFold

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The entry arrays and the windows' blocks, under their literal types -/

/-- The query, key, value and score-bias arrays as the region finds them. -/
abbrev qarr (c : Dev nD) : Vec Ideal S4x4096x512 .bf16 := V c main_v0_0
abbrev karr (c : Dev nD) : Vec Ideal S4x4096x512 .bf16 := V c main_v0_1
abbrev varr (c : Dev nD) : Vec Ideal S4x4096x512 .bf16 := V c main_v0_2
abbrev barr (c : Dev nD) : Vec Ideal S1x4096x4096 .f32 := V c main_arg1

/-- The query, key, value and score-bias tiles point `t` works on. -/
abbrev qblk (c : Dev nD) (t : Fin cfg1.N) : Vec Ideal S4x1024x512 .bf16 := iblk1 V c 0 t
abbrev kblk (c : Dev nD) (t : Fin cfg1.N) : Vec Ideal S4x512x512 .bf16 := iblk1 V c 1 t
abbrev vblk (c : Dev nD) (t : Fin cfg1.N) : Vec Ideal S4x512x512 .bf16 := iblk1 V c 2 t
abbrev bblk (c : Dev nD) (t : Fin cfg1.N) : Vec Ideal S1x1024x512 .f32 := iblk1 V c 3 t

/-- Where each tile sits: point `t = 8·qi + ki` takes query tile `qi`, key and value tile `ki`, and the score-bias tile
    `(qi, ki)` — the printed index maps decided over the 32 points. -/
theorem tile_index : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 3) = 0 ∧ win1_2.index t (1 : Fin 3) = t.val % 8 ∧ win1_2.index t (2 : Fin 3) = 0
    ∧ win1_3.index t (0 : Fin 3) = 0 ∧ win1_3.index t (1 : Fin 3) = t.val / 8 ∧ win1_3.index t (2 : Fin 3) = t.val % 8 :=
  (by decide +kernel : ∀ t : Fin grid1.N, _)

/-- The query tile's element `(b, r, e)` is the query array's at row `1024·(t / 8) + r`. -/
theorem qblk_apply (c : Dev nD) (t : Fin cfg1.N) (b : Fin 4) (r : Fin 1024) (e : Fin 512)
    (hq : 1024 * (t.val / 8) + r.val < 4096) :
    qblk V c t (ix3 b r e) = qarr V c (ix3 b ⟨1024 * (t.val / 8) + r.val, hq⟩ e) := by
  obtain ⟨e0, e1, e2, -⟩ := tile_index t
  show V c main_v0_0 (((cfg1.win 0).blk t).view.emb (ix3 b r e)) = V c main_v0_0 (ix3 b ⟨1024 * (t.val / 8) + r.val, hq⟩ e)
  refine congrArg (V c main_v0_0) ?_
  funext a; apply Fin.ext
  match a with
  | ⟨0, _⟩ => show win1_0.index t (0 : Fin 3) * 4 + 1 * b.val = b.val; omega
  | ⟨1, _⟩ => show win1_0.index t (1 : Fin 3) * 1024 + 1 * r.val = 1024 * (t.val / 8) + r.val; omega
  | ⟨2, _⟩ => show win1_0.index t (2 : Fin 3) * 512 + 1 * e.val = e.val; omega

/-- The key tile's element `(b, k', e)` is the key array's at row `512·(t % 8) + k'`. -/
theorem kblk_apply (c : Dev nD) (t : Fin cfg1.N) (b : Fin 4) (k' : Fin 512) (e : Fin 512)
    (hk : 512 * (t.val % 8) + k'.val < 4096) :
    kblk V c t (ix3 b k' e) = karr V c (ix3 b ⟨512 * (t.val % 8) + k'.val, hk⟩ e) := by
  obtain ⟨-, -, -, e0, e1, e2, -⟩ := tile_index t
  show V c main_v0_1 (((cfg1.win 1).blk t).view.emb (ix3 b k' e)) = V c main_v0_1 (ix3 b ⟨512 * (t.val % 8) + k'.val, hk⟩ e)
  refine congrArg (V c main_v0_1) ?_
  funext a; apply Fin.ext
  match a with
  | ⟨0, _⟩ => show win1_1.index t (0 : Fin 3) * 4 + 1 * b.val = b.val; omega
  | ⟨1, _⟩ => show win1_1.index t (1 : Fin 3) * 512 + 1 * k'.val = 512 * (t.val % 8) + k'.val; omega
  | ⟨2, _⟩ => show win1_1.index t (2 : Fin 3) * 512 + 1 * e.val = e.val; omega

/-- The value tile's element `(b, k', d)` is the value array's at row `512·(t % 8) + k'`. -/
theorem vblk_apply (c : Dev nD) (t : Fin cfg1.N) (b : Fin 4) (k' : Fin 512) (d : Fin 512)
    (hk : 512 * (t.val % 8) + k'.val < 4096) :
    vblk V c t (ix3 b k' d) = varr V c (ix3 b ⟨512 * (t.val % 8) + k'.val, hk⟩ d) := by
  obtain ⟨-, -, -, -, -, -, e0, e1, e2, -⟩ := tile_index t
  show V c main_v0_2 (((cfg1.win 2).blk t).view.emb (ix3 b k' d)) = V c main_v0_2 (ix3 b ⟨512 * (t.val % 8) + k'.val, hk⟩ d)
  refine congrArg (V c main_v0_2) ?_
  funext a; apply Fin.ext
  match a with
  | ⟨0, _⟩ => show win1_2.index t (0 : Fin 3) * 4 + 1 * b.val = b.val; omega
  | ⟨1, _⟩ => show win1_2.index t (1 : Fin 3) * 512 + 1 * k'.val = 512 * (t.val % 8) + k'.val; omega
  | ⟨2, _⟩ => show win1_2.index t (2 : Fin 3) * 512 + 1 * d.val = d.val; omega

/-- The score-bias tile's element `(0, r, k')` is the score-bias array's at `(0, 1024·(t / 8) + r, 512·(t % 8) + k')`. -/
theorem bblk_apply (c : Dev nD) (t : Fin cfg1.N) (r : Fin 1024) (k' : Fin 512)
    (hq : 1024 * (t.val / 8) + r.val < 4096) (hk : 512 * (t.val % 8) + k'.val < 4096) :
    bblk V c t (ix3 (0 : Fin 1) r k')
      = barr V c (ix3 (0 : Fin 1) ⟨1024 * (t.val / 8) + r.val, hq⟩ ⟨512 * (t.val % 8) + k'.val, hk⟩) := by
  obtain ⟨-, -, -, -, -, -, -, -, -, e0, e1, e2⟩ := tile_index t
  show V c main_arg1 (((cfg1.win 3).blk t).view.emb (ix3 (0 : Fin 1) r k'))
    = V c main_arg1 (ix3 (0 : Fin 1) ⟨1024 * (t.val / 8) + r.val, hq⟩ ⟨512 * (t.val % 8) + k'.val, hk⟩)
  refine congrArg (V c main_arg1) ?_
  funext a; apply Fin.ext
  match a with
  | ⟨0, _⟩ => show win1_3.index t (0 : Fin 3) * 1 + 1 * (0 : Fin 1).val = (0 : Fin 1).val; omega
  | ⟨1, _⟩ => show win1_3.index t (1 : Fin 3) * 1024 + 1 * r.val = 1024 * (t.val / 8) + r.val; omega
  | ⟨2, _⟩ => show win1_3.index t (2 : Fin 3) * 512 + 1 * k'.val = 512 * (t.val % 8) + k'.val; omega

/-! ## One point's addend, and the fold -/

/-- What one point adds to element `i` of the output tile: the sum over its 512 keys of weight times value. -/
def tileSum (x0 : Vec Ideal S4x1024x512 .bf16) (x1 : Vec Ideal S4x512x512 .bf16) (x2 : Vec Ideal S4x512x512 .bf16)
    (x3 : Vec Ideal S1x1024x512 .f32) (i : S4x1024x512.Idx) : EReal :=
  ∑ k' : Fin 512, Ideal.logistic ((∑ e : Fin 512, (x0 (ix3 (i 0) (i 1) e) * Cert.Spec.scale) * x1 (ix3 (i 0) k' e))
    + x3 (ix3 (0 : Fin 1) (i 1) k')) * x2 (ix3 (i 0) k' (i 2))

/-- The body's arithmetic at any index of the tile: what the tile held plus the point's addend. -/
theorem k1_pay2_eq_add (x0 : Vec Ideal S4x1024x512 .bf16) (x1 : Vec Ideal S4x512x512 .bf16) (x2 : Vec Ideal S4x512x512 .bf16)
    (x3 : Vec Ideal S1x1024x512 .f32) (xo : Vec Ideal S4x1024x512 .f32) (i : S4x1024x512.Idx) :
    k1_pay2 (F := Ideal) x0 x1 x2 x3 xo i = xo i + tileSum x0 x1 x2 x3 i := by
  have h := AttnPayload.k1_pay2_apply x0 x1 x2 x3 xo (i 0) (i 1) (i 2)
  rw [eq_ix3 i]
  exact h

/-- Point `n`'s addend as a function of every natural (zero past the grid, where it is never used). -/
def tileAt (c : Dev nD) (n : ℕ) (i : S4x1024x512.Idx) : EReal :=
  if h : n < cfg1.N then tileSum (qblk V c ⟨n, h⟩) (kblk V c ⟨n, h⟩) (vblk V c ⟨n, h⟩) (bblk V c ⟨n, h⟩) i else 0

/-- The tile after point `t` is the fold over `t`'s run: reset to the first point's arithmetic on the zero tile, then each
    later point's arithmetic on what the point before left. -/
theorem outsAt1_eq_fold (c : Dev nD) (t : Fin cfg1.N) (h' : 8 * (t.val / 8) + t.val % 8 < cfg1.N) :
    outsAt1 (F := Ideal) V c t.val t.isLt
      = Pipeline.accAt (N := cfg1.N)
          (fun n h => k1_pay2 (F := Ideal) (qblk V c ⟨n, h⟩) (kblk V c ⟨n, h⟩) (vblk V c ⟨n, h⟩) (bblk V c ⟨n, h⟩) (k1_pay1 (F := Ideal)))
          (fun n h acc => k1_pay2 (F := Ideal) (qblk V c ⟨n, h⟩) (kblk V c ⟨n, h⟩) (vblk V c ⟨n, h⟩) (bblk V c ⟨n, h⟩) acc)
          (8 * (t.val / 8)) (t.val % 8) h' :=
  Pipeline.eq_accAt_of_mod (N := cfg1.N) (outsAt1 (F := Ideal) V c) 8
    (fun n h => k1_pay2 (F := Ideal) (qblk V c ⟨n, h⟩) (kblk V c ⟨n, h⟩) (vblk V c ⟨n, h⟩) (bblk V c ⟨n, h⟩) (k1_pay1 (F := Ideal)))
    (fun n h acc => k1_pay2 (F := Ideal) (qblk V c ⟨n, h⟩) (kblk V c ⟨n, h⟩) (vblk V c ⟨n, h⟩) (bblk V c ⟨n, h⟩) acc)
    (fun n h hm => (outsAt1_A (F := Ideal) V c ⟨n, h⟩ hm).trans
      (AttnBody.out1_A_4_eq (F := Ideal) c (grid1.coords ⟨n, h⟩) (ms1_0 ⟨n, h⟩) (hs1_0 ⟨n, h⟩) (ms1_1 ⟨n, h⟩) (hs1_1 ⟨n, h⟩)
        (ms1_2 ⟨n, h⟩) (hs1_2 ⟨n, h⟩) (ms1_3 ⟨n, h⟩) (hs1_3 ⟨n, h⟩) (ms1_4 ⟨n, h⟩) (hs1_4 ⟨n, h⟩)
        ((hcond1_0 ⟨n, h⟩).mpr hm) (qblk V c ⟨n, h⟩) (kblk V c ⟨n, h⟩) (vblk V c ⟨n, h⟩) (bblk V c ⟨n, h⟩)))
    (fun n h hm => (outsAt1_B (F := Ideal) V c ⟨n + 1, h⟩ hm).trans
      (AttnBody.out1_B_4_eq (F := Ideal) c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
        (fun hc => hm ((hcond1_0 ⟨n + 1, h⟩).mp hc)) (qblk V c ⟨n + 1, h⟩) (kblk V c ⟨n + 1, h⟩) (vblk V c ⟨n + 1, h⟩) (bblk V c ⟨n + 1, h⟩)
        (outsAt1 (F := Ideal) V c n (Nat.lt_of_succ_lt h))))
    (by decide) t.val t.isLt h'

/-- One point's addend at element `(b, r, d)`, read off the arrays: the contributions of the point's 512 keys
    `512·ki …` to output element `(b, 1024·qi + r, d)`. -/
theorem tileSum_eq (c : Dev nD) (t : Fin cfg1.N) (b : Fin 4) (r : Fin 1024) (d : Fin 512) (qi ki : ℕ)
    (hqi : t.val / 8 = qi) (hki : t.val % 8 = ki) (hq : 1024 * qi + r.val < 4096) :
    tileSum (qblk V c t) (kblk V c t) (vblk V c t) (bblk V c t) (ix3 b r d)
      = ∑ k' : Fin 512, Cert.Spec.term (V c main_v0_0) (V c main_v0_1) (V c main_v0_2) (V c main_arg1) b
          ⟨1024 * qi + r.val, hq⟩ d (512 * ki + k'.val) := by
  subst hqi hki
  refine Finset.sum_congr rfl fun k' _ => ?_
  have hk : 512 * (t.val % 8) + k'.val < 4096 := by have := k'.isLt; omega
  show Ideal.logistic ((∑ e : Fin 512, (qblk V c t (ix3 b r e) * Cert.Spec.scale) * kblk V c t (ix3 b k' e))
      + bblk V c t (ix3 (0 : Fin 1) r k')) * vblk V c t (ix3 b k' d) = _
  unfold Cert.Spec.term Cert.Spec.wgt
  rw [Cert.Spec.key_of_lt hk, vblk_apply V c t b k' d hk, bblk_apply V c t r k' hq hk]
  simp only [qblk_apply V c t b r _ hq, kblk_apply V c t b k' _ hk]

/-- After point `t` the tile's element `(b, r, d)` is zero plus the contributions of key tiles `0 … t % 8` to output
    element `(b, 1024·(t / 8) + r, d)`. -/
theorem outsAt1_apply (c : Dev nD) (t : Fin cfg1.N) (b : Fin 4) (r : Fin 1024) (d : Fin 512)
    (hq : 1024 * (t.val / 8) + r.val < 4096) :
    outsAt1 (F := Ideal) V c t.val t.isLt (ix3 b r d)
      = 0 + ∑ s ∈ Finset.range (t.val % 8 + 1), ∑ k' : Fin 512,
          Cert.Spec.term (V c main_v0_0) (V c main_v0_1) (V c main_v0_2) (V c main_arg1) b ⟨1024 * (t.val / 8) + r.val, hq⟩ d (512 * s + k'.val) := by
  have hN : t.val < 32 := lt_of_lt_of_eq t.isLt (show cfg1.N = 32 from N_1)
  have h' : 8 * (t.val / 8) + t.val % 8 < cfg1.N := by rw [Nat.div_add_mod]; exact t.isLt
  rw [outsAt1_eq_fold V c t h']
  refine (Pipeline.accAt_add_apply (N := cfg1.N) (ι := S4x1024x512.Idx) (β := EReal)
    (fun n h => k1_pay2 (F := Ideal) (qblk V c ⟨n, h⟩) (kblk V c ⟨n, h⟩) (vblk V c ⟨n, h⟩) (bblk V c ⟨n, h⟩) (k1_pay1 (F := Ideal)))
    (fun n h acc => k1_pay2 (F := Ideal) (qblk V c ⟨n, h⟩) (kblk V c ⟨n, h⟩) (vblk V c ⟨n, h⟩) (bblk V c ⟨n, h⟩) acc)
    (fun _ => 0) (tileAt V c) (8 * (t.val / 8)) (t.val % 8) ?_ ?_ (t.val % 8) (Nat.le_refl _) h' (ix3 b r d)).trans ?_
  · intro h i
    refine (k1_pay2_eq_add (qblk V c ⟨_, h⟩) (kblk V c ⟨_, h⟩) (vblk V c ⟨_, h⟩) (bblk V c ⟨_, h⟩) (k1_pay1 (F := Ideal)) i).trans ?_
    rw [AttnPayload.k1_pay1_apply]
    unfold tileAt
    rw [dif_pos h]
  · intro n h acc i _ _
    refine (k1_pay2_eq_add (qblk V c ⟨n, h⟩) (kblk V c ⟨n, h⟩) (vblk V c ⟨n, h⟩) (bblk V c ⟨n, h⟩) acc i).trans ?_
    unfold tileAt
    rw [dif_pos h]
  · refine congrArg (fun x => (0 : EReal) + x) (Finset.sum_congr rfl fun s hs => ?_)
    have hs' : s < t.val % 8 + 1 := Finset.mem_range.mp hs
    have hlt : 8 * (t.val / 8) + s < cfg1.N := lt_of_lt_of_eq (by omega : 8 * (t.val / 8) + s < 32) (show cfg1.N = 32 from N_1).symm
    unfold tileAt
    rw [dif_pos hlt]
    exact tileSum_eq V c ⟨8 * (t.val / 8) + s, hlt⟩ b r d (t.val / 8) s
      (by show (8 * (t.val / 8) + s) / 8 = t.val / 8; omega) (by show (8 * (t.val / 8) + s) % 8 = s; omega) hq

end Cert.KernelIdeal.AttnFold

end
-- ==== Proof.AttnArray.lean ====
/-
  The attention kernel's result array as a whole-array function of its arguments.

  The grid has 32 points, `t = 8·qi + ki`: query tile `qi` (rows `1024·qi …`) against key tile `ki` (keys `512·ki …`). The
  output block's index depends on `qi` only, so the same block stays in its buffer through the 8 key tiles of a query
  tile, reset at `ki = 0`, added to at every `ki`, and written back at `ki = 7`. What is written back is therefore the fold
  of the 8 tiles' contributions onto zero, which is the sum over all 4096 keys (Spec.lean, `zero_add_tiles`); the 4 blocks
  written back tile the query axis.
-/
import proofs.«152282_j3487513444911_1_alg».proof.Proof.Gen.KernelIdeal.Frame
import proofs.«152282_j3487513444911_1_alg».proof.Proof.AttnFold
import Idealize.ShloMosaic.Lib.Pipeline.Value

noncomputable section

namespace Cert.KernelIdeal.AttnArray

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output window's printed index map, decided over the grid: the block written at point `t` has block index
    `(0, t / 8, 0)`. -/
theorem out_index : ∀ t : Fin cfg1.N, win1_4.index t (0 : Fin 3) = 0 ∧ win1_4.index t (1 : Fin 3) = t.val / 8
    ∧ win1_4.index t (2 : Fin 3) = 0 :=
  (by decide +kernel : ∀ t : Fin grid1.N, win1_4.index t (0 : Fin 3) = 0 ∧ win1_4.index t (1 : Fin 3) = t.val / 8
    ∧ win1_4.index t (2 : Fin 3) = 0)

/-- Attention at one element depends on the element's coordinates only. -/
theorem attn_congr (Q K W : Cert.Spec.SAct.Idx → EReal) (bias : Cert.Spec.SBias.Idx → EReal) {b b' : Fin 4} {q q' : Fin 4096}
    {d d' : Fin 512} (hb : b = b') (hq : q = q') (hd : d = d') :
    Cert.Spec.attn Q K W bias b q d = Cert.Spec.attn Q K W bias b' q' d' := by
  subst hb hq hd; rfl

/-- What a point at the last key tile of its query tile writes back is its block of the attention array: element
    `(b, r, d)` of the tile is zero plus the eight key tiles' contributions to output element `(b, 1024·(t / 8) + r, d)`,
    which is the sum over all keys, and that output element is where the block's element sits in the array (block index
    times block size plus the coordinate inside the block, on each axis). -/
theorem flushed_eq (c : Dev nD) (t : Fin cfg1.N) (hf : (cfg1.win 4).flush t = true) :
    (dat1 (F := Ideal) V c).flushed 4 t
      = ((cfg1.win 4).blk t).view.read (Elt Ideal)
          (Cert.Spec.attnArr (V c main_v0_0) (V c main_v0_1) (V c main_v0_2) (V c main_arg1)) := by
  have h7 : t.val % 8 = 7 := (flush1_4 t).mp hf
  have hN : t.val < 32 := lt_of_lt_of_eq t.isLt (show cfg1.N = 32 from N_1)
  obtain ⟨e0, e1, e2⟩ := out_index t
  show (cfg1.win 4).cut (grid1.coords t) ((dat1 (F := Ideal) V c).after 4 t) = _
  rw [after1_4]
  funext y
  have hy0 : (y 0).val < 4 := (y 0).isLt
  have hy1 : (y 1).val < 1024 := (y 1).isLt
  have hy2 : (y 2).val < 512 := (y 2).isLt
  have hq : 1024 * (t.val / 8) + (y 1).val < 4096 := by omega
  have hx : (cfg1.win 4).xinj (grid1.coords t) y
      = ix3 (⟨(y 0).val, hy0⟩ : Fin 4) (⟨(y 1).val, hy1⟩ : Fin 1024) (⟨(y 2).val, hy2⟩ : Fin 512) := by
    funext a
    match a with
    | ⟨0, _⟩ => rfl
    | ⟨1, _⟩ => rfl
    | ⟨2, _⟩ => rfl
  show outsAt1 (F := Ideal) V c t.val t.isLt ((cfg1.win 4).xinj (grid1.coords t) y) = _
  rw [hx, AttnFold.outsAt1_apply V c t ⟨(y 0).val, hy0⟩ ⟨(y 1).val, hy1⟩ ⟨(y 2).val, hy2⟩ hq, h7]
  refine (Cert.Spec.zero_add_tiles _ _ _ _ _ _ _).trans ?_
  show _ = Cert.Spec.attn (V c main_v0_0) (V c main_v0_1) (V c main_v0_2) (V c main_arg1)
      ((((cfg1.win 4).blk t).view.emb y) 0) ((((cfg1.win 4).blk t).view.emb y) 1) ((((cfg1.win 4).blk t).view.emb y) 2)
  refine attn_congr _ _ _ _ (Fin.ext ?_) (Fin.ext ?_) (Fin.ext ?_)
  · show (y 0).val = win1_4.index t (0 : Fin 3) * 4 + 1 * (y 0).val
    omega
  · show 1024 * (t.val / 8) + (y 1).val = win1_4.index t (1 : Fin 3) * 1024 + 1 * (y 1).val
    omega
  · show (y 2).val = win1_4.index t (2 : Fin 3) * 512 + 1 * (y 2).val
    omega

/-- Every element of the result array is in the block written back at the last key tile of its query tile: element
    `(b, q, d)` at point `8·(q / 1024) + 7`. -/
theorem covered (c : Dev nD) (i : ((cfg1.win 4).arr.view.loc (c.tc : Thread nD τ)).2.ty.Idx) :
    ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 512 := (i 2).isLt
  have hN : cfg1.N = 32 := N_1
  have ht : 8 * ((i 1).val / 1024) + 7 < cfg1.N := by rw [hN]; omega
  refine ⟨⟨8 * ((i 1).val / 1024) + 7, ht⟩, (flush1_4 _).mpr (by show (8 * ((i 1).val / 1024) + 7) % 8 = 7; omega), ?_⟩
  obtain ⟨e0, e1, e2⟩ := out_index ⟨8 * ((i 1).val / 1024) + 7, ht⟩
  have e1' : win1_4.index ⟨8 * ((i 1).val / 1024) + 7, ht⟩ (1 : Fin 3) = (i 1).val / 1024 := by
    rw [e1]; show (8 * ((i 1).val / 1024) + 7) / 8 = (i 1).val / 1024; omega
  show i ∈ ((View.whole main_v1).slice (win1_4.rect ⟨8 * ((i 1).val / 1024) + 7, ht⟩)).set
  rw [View.set_slice_whole, Rect.mem_set_unit]
  intro a
  match a with
  | ⟨0, _⟩ =>
    show win1_4.index ⟨8 * ((i 1).val / 1024) + 7, ht⟩ (0 : Fin 3) * 4 ≤ (i 0).val
      ∧ (i 0).val < win1_4.index ⟨8 * ((i 1).val / 1024) + 7, ht⟩ (0 : Fin 3) * 4 + 4
    omega
  | ⟨1, _⟩ =>
    show win1_4.index ⟨8 * ((i 1).val / 1024) + 7, ht⟩ (1 : Fin 3) * 1024 ≤ (i 1).val
      ∧ (i 1).val < win1_4.index ⟨8 * ((i 1).val / 1024) + 7, ht⟩ (1 : Fin 3) * 1024 + 1024
    omega
  | ⟨2, _⟩ =>
    show win1_4.index ⟨8 * ((i 1).val / 1024) + 7, ht⟩ (2 : Fin 3) * 512 ≤ (i 2).val
      ∧ (i 2).val < win1_4.index ⟨8 * ((i 1).val / 1024) + 7, ht⟩ (2 : Fin 3) * 512 + 512
    omega

/-- The result array ends at attention without normalisation of the region's query, key, value and bias arrays. -/
theorem arr4 (c : Dev nD) :
    (dat1 (F := Ideal) V c).arrAt 4 cfg1.N
      = Cert.Spec.attnArr (V c main_v0_0) (V c main_v0_1) (V c main_v0_2) (V c main_arg1) :=
  (dat1 (F := Ideal) V c).arrAt_eq_of_cover 4
    (Cert.Spec.attnArr (V c main_v0_0) (V c main_v0_1) (V c main_v0_2) (V c main_arg1))
    (flushed_eq V c) (covered c)

end Cert.KernelIdeal.AttnArray

end
-- ==== Proof.RefValue.lean ====
/-
  The reference's result as the same function of the arguments.

  The reference computes the three linear layers with `einsum` plus a broadcast bias, scales the queries, takes every
  query against every key, adds the score bias (repeated over the batches), applies `1 / (1 + exp (−s))` — which over the
  extended reals is the logistic function by definition — and sums the weights against the values over all 4096 keys.
  Read element by element these are the functions of Spec.lean.
-/
import proofs.«152282_j3487513444911_1_alg».proof.Proof.Gen.ReferenceIdeal.Read
import proofs.«152282_j3487513444911_1_alg».proof.Proof.Spec

noncomputable section

namespace Cert.ReferenceIdeal.RefValue

open Cert.ReferenceIdeal Cert.ReferenceIdeal.Gen Idealize.ShloMosaic Idealize.ShloMosaic.TcCoe Idealize.ShloMosaic.ValueIdx Idealize.SL.Sem

/-! ## The constant 1 -/

/-- The single-precision word of 1.0 denotes 1. -/
theorem one_word : Ideal.ofBits .f32 0x3F800000#32 = 1 := IdealRules.sign_bit.ideal_onePat .f32

/-! ## Where each stage reads its operands, in coordinates -/

/-- A linear layer's output element `(b, s, e)` reads the input at `(b, s, d)`. -/
theorem linear_lhs (b : Fin 4) (s : Fin 4096) (e d : Fin 512) :
    Read.lidx_main_v0 (ix3 b s e) d = ix3 b s d :=
  funext fun a => Fin.ext (by match a with | ⟨0, _⟩ => rfl | ⟨1, _⟩ => rfl | ⟨2, _⟩ => rfl)

/-- A linear layer's output element `(b, s, e)` reads the weight at `(e, d)`. -/
theorem linear_rhs (b : Fin 4) (s : Fin 4096) (e d : Fin 512) :
    Read.ridx_main_v0 (ix3 b s e) d = ix2 e d :=
  funext fun a => Fin.ext (by match a with | ⟨0, _⟩ => rfl | ⟨1, _⟩ => rfl)

/-- The broadcast bias at `(b, s, e)` is the bias vector at `e`. -/
theorem linear_bias (b : Fin 4) (s : Fin 4096) (e : Fin 512) :
    Read.idx_main_v1 (Read.idx_main_v2 (ix3 b s e)) = ix1 e :=
  funext fun a => Fin.ext (by match a with | ⟨0, _⟩ => rfl)

/-- The score of query `q` against key `k` in batch `b` reads the scaled queries at `(b, q, e)`. -/
theorem score_lhs (b : Fin 4) (q k : Fin 4096) (e : Fin 512) :
    Read.lidx_main_v14 (ix3 b q k) e = ix3 b q e :=
  funext fun a => Fin.ext (by match a with | ⟨0, _⟩ => rfl | ⟨1, _⟩ => rfl | ⟨2, _⟩ => rfl)

/-- The score of query `q` against key `k` in batch `b` reads the keys at `(b, k, e)`. -/
theorem score_rhs (b : Fin 4) (q k : Fin 4096) (e : Fin 512) :
    Read.ridx_main_v14 (ix3 b q k) e = ix3 b k e :=
  funext fun a => Fin.ext (by match a with | ⟨0, _⟩ => rfl | ⟨1, _⟩ => rfl | ⟨2, _⟩ => rfl)

/-- The score bias repeated over the batches: at `(b, q, k)` it is the bias at `(0, q, k)`. -/
theorem score_bias (b : Fin 4) (q k : Fin 4096) :
    Read.idx_main_v15 (ix3 b q k) = ix3 (0 : Fin 1) q k :=
  funext fun a => Fin.ext (by match a with | ⟨0, _⟩ => rfl | ⟨1, _⟩ => rfl | ⟨2, _⟩ => rfl)

/-- Output element `(b, q, d)` reads the weight of key `k` at `(b, q, k)`. -/
theorem out_lhs (b : Fin 4) (q : Fin 4096) (d : Fin 512) (k : Fin 4096) :
    Read.lidx_main_v23 (ix3 b q d) k = ix3 b q k :=
  funext fun a => Fin.ext (by match a with | ⟨0, _⟩ => rfl | ⟨1, _⟩ => rfl | ⟨2, _⟩ => rfl)

/-- Output element `(b, q, d)` reads the value of key `k` at `(b, k, d)`. -/
theorem out_rhs (b : Fin 4) (q : Fin 4096) (d : Fin 512) (k : Fin 4096) :
    Read.ridx_main_v23 (ix3 b q d) k = ix3 b k d :=
  funext fun a => Fin.ext (by match a with | ⟨0, _⟩ => rfl | ⟨1, _⟩ => rfl | ⟨2, _⟩ => rfl)

/-! ## The three linear layers -/

/-- The query layer: `einsum` plus the broadcast bias is the linear layer of Spec.lean. -/
theorem linear_q (x0 : (⟨S4x4096x512, .f32⟩ : BufTy).Contents (Elt Ideal)) (x2 : (⟨S512x512, .f32⟩ : BufTy).Contents (Elt Ideal))
    (x3 : (⟨S512, .f32⟩ : BufTy).Contents (Elt Ideal)) (b : Fin 4) (s : Fin 4096) (e : Fin 512) :
    Read.val_main_v3 (F := Ideal) x0 x2 x3 (ix3 b s e) = Cert.Spec.proj x0 x2 x3 b s e := by
  rw [Read.val_main_v3_apply, Read.val_main_v0_apply, Read.val_main_v2_apply, Read.val_main_v1_apply, linear_bias]
  simp only [linear_lhs, linear_rhs]
  rfl

/-- The key layer is the same program text on its own weight and bias. -/
theorem linear_k (x0 : (⟨S4x4096x512, .f32⟩ : BufTy).Contents (Elt Ideal)) (x4 : (⟨S512x512, .f32⟩ : BufTy).Contents (Elt Ideal))
    (x5 : (⟨S512, .f32⟩ : BufTy).Contents (Elt Ideal)) (b : Fin 4) (s : Fin 4096) (e : Fin 512) :
    Read.val_main_v7 (F := Ideal) x0 x4 x5 (ix3 b s e) = Cert.Spec.proj x0 x4 x5 b s e :=
  linear_q x0 x4 x5 b s e

/-- The value layer likewise. -/
theorem linear_v (x0 : (⟨S4x4096x512, .f32⟩ : BufTy).Contents (Elt Ideal)) (x6 : (⟨S512x512, .f32⟩ : BufTy).Contents (Elt Ideal))
    (x7 : (⟨S512, .f32⟩ : BufTy).Contents (Elt Ideal)) (b : Fin 4) (s : Fin 4096) (e : Fin 512) :
    Read.val_main_v11 (F := Ideal) x0 x6 x7 (ix3 b s e) = Cert.Spec.proj x0 x6 x7 b s e :=
  linear_q x0 x6 x7 b s e

/-! ## The attention weight -/

/-- `1 / (1 + exp (−s))` of the scaled score plus the bias is the logistic weight of Spec.lean. -/
theorem weight (x0 : (⟨S4x4096x512, .f32⟩ : BufTy).Contents (Elt Ideal)) (x1 : (⟨S1x4096x4096, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (b : Fin 4) (q k : Fin 4096) :
    Read.val_main_v22 (F := Ideal) x0 x1 x2 x3 x4 x5 (ix3 b q k)
      = Cert.Spec.wgt (Cert.Spec.projArr x0 x2 x3) (Cert.Spec.projArr x0 x4 x5) x1 b q k := by
  rw [Read.val_main_v22_apply, Read.val_main_v21_apply, Read.val_main_cst_1_apply, Read.val_main_v20_apply,
    Read.val_main_v19_apply, Read.val_main_cst_0_apply, Read.val_main_v18_apply, Read.val_main_v17_apply,
    Read.val_main_v16_apply, Read.val_main_v14_apply, Read.val_main_v15_apply, score_bias]
  simp only [score_lhs, score_rhs, Read.val_main_v13_apply, Read.val_main_v12_apply, Read.val_main_cst_apply, linear_q, linear_k,
    Ideal.hostDivf_def, Ideal.hostUnary_exp_def, Ideal.hostNegf_def, Ideal.negf_def, Ideal.addf_def, Ideal.mulf_def,
    Ideal.ofBits_def, one_word]
  rfl

/-! ## The output -/

/-- Output element `(b, q, d)`: the weights against the values, summed over all 4096 keys. -/
theorem out (x0 : (⟨S4x4096x512, .f32⟩ : BufTy).Contents (Elt Ideal)) (x1 : (⟨S1x4096x4096, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (b : Fin 4) (q : Fin 4096) (d : Fin 512) :
    Read.val_main_v23 (F := Ideal) x0 x1 x2 x3 x4 x5 x6 x7 (ix3 b q d)
      = Cert.Spec.attn (Cert.Spec.projArr x0 x2 x3) (Cert.Spec.projArr x0 x4 x5) (Cert.Spec.projArr x0 x6 x7) x1 b q d := by
  rw [Read.val_main_v23_apply]
  refine Finset.sum_congr rfl fun k _ => ?_
  rw [out_lhs, out_rhs, weight, linear_v]
  unfold Cert.Spec.term
  rw [Cert.Spec.key_val]
  rfl

/-- The reference's last stage is attention without normalisation of the three linear layers of the input. -/
theorem ref_eq (x0 : (⟨S4x4096x512, .f32⟩ : BufTy).Contents (Elt Ideal)) (x1 : (⟨S1x4096x4096, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal)) :
    Cert.ReferenceIdeal.Read.val_main_v23 (F := Ideal) x0 x1 x2 x3 x4 x5 x6 x7
      = Cert.Spec.attnArr (Cert.Spec.projArr x0 x2 x3) (Cert.Spec.projArr x0 x4 x5) (Cert.Spec.projArr x0 x6 x7) x1 := by
  funext i
  exact (congrArg (Read.val_main_v23 (F := Ideal) x0 x1 x2 x3 x4 x5 x6 x7) (eq_ix3 i)).trans
    (out x0 x1 x2 x3 x4 x5 x6 x7 (i 0) (i 1) (i 2))

end Cert.ReferenceIdeal.RefValue

end
-- ==== Proof.lean ====
/-
  Sigmoid attention: a tiled kernel against its plain reference, equal over the extended reals.

  Both programs compute, from an input `x : [4, 4096, 512]`, three weight/bias pairs and a score bias `[1, 4096, 4096]`,
    Q, K, V = x · Wᵀ + β                                   (three linear layers),
    out[b, q, d] = ∑ k, logistic ((∑ e, (Q[b, q, e] · scale) · K[b, k, e]) + bias[0, q, k]) · V[b, k, d],
  with the same single-precision word for `scale` and no normalisation over the keys (Spec.lean).

  The kernel does it in two grids. The first writes Q, K and V in blocks of 512 sequence rows; each block is the linear
  layer of the rows it reads, and the 8 blocks tile the arrays (ProjPayload.lean, ProjArrays.lean). The second takes a
  tile of 1024 queries against 8 successive tiles of 512 keys, resets the output tile to zero at the first key tile,
  adds each key tile's contribution and writes the tile back after the last one (AttnBody.lean, AttnPayload.lean,
  AttnFold.lean, AttnArray.lean); at the ideal values the changes of float format between the two grids are identities
  and a product into a zero accumulator is the plain sum over the contracted axis. Eight partial sums added in order onto
  zero are the sum over all 4096 keys, because addition of extended reals is commutative and associative at the
  infinities too, so no finiteness of the inputs is used. The reference is the same function read one operation at a
  time (RefValue.lean): its `1 / (1 + exp (−s))` is the logistic function by definition.

  The kernel's run with its result array named is KernelRun.lean; the reference's run and the frames of the two kernel
  programs are the generated modules'. The idealization rewrote nothing, so `preserves` is trivial.
-/
import proofs.«152282_j3487513444911_1_alg».proof.Defs
import proofs.«152282_j3487513444911_1_alg».proof.Proof.Gen.Kernel
import proofs.«152282_j3487513444911_1_alg».proof.Proof.Gen.Kernel.Skeleton
import proofs.«152282_j3487513444911_1_alg».proof.Proof.Gen.Kernel.Launch
import proofs.«152282_j3487513444911_1_alg».proof.Proof.Gen.Kernel.Points
import proofs.«152282_j3487513444911_1_alg».proof.Proof.Gen.Kernel.Frame
import proofs.«152282_j3487513444911_1_alg».proof.Proof.Gen.KernelIdeal
import proofs.«152282_j3487513444911_1_alg».proof.Proof.Gen.KernelIdeal.Skeleton
import proofs.«152282_j3487513444911_1_alg».proof.Proof.Gen.KernelIdeal.Launch
import proofs.«152282_j3487513444911_1_alg».proof.Proof.Gen.KernelIdeal.Points
import proofs.«152282_j3487513444911_1_alg».proof.Proof.Gen.KernelIdeal.Frame
import proofs.«152282_j3487513444911_1_alg».proof.Proof.Gen.ReferenceIdeal
import proofs.«152282_j3487513444911_1_alg».proof.Proof.Gen.ReferenceIdeal.Run
import proofs.«152282_j3487513444911_1_alg».proof.Proof.Gen.ReferenceIdeal.Read
import proofs.«152282_j3487513444911_1_alg».proof.Proof.Gen.Pre_finite_inputs
import proofs.«152282_j3487513444911_1_alg».proof.Proof.Spec
import proofs.«152282_j3487513444911_1_alg».proof.Proof.KernelRun
import proofs.«152282_j3487513444911_1_alg».proof.Proof.ProjArrays
import proofs.«152282_j3487513444911_1_alg».proof.Proof.AttnArray
import proofs.«152282_j3487513444911_1_alg».proof.Proof.RefValue
import Idealize.ShloMosaic.Adequacy
import Idealize.ShloMosaic.Init

noncomputable section

namespace Cert.Proof

open Idealize.ShloMosaic Idealize.ShloMosaic.TcCoe Idealize.SL.Sem

/-! ## The kernel's result as one function of the launch arguments -/

section KernelValue

open Cert.KernelIdeal Cert.KernelIdeal.Gen

/-- Attention without normalisation of the three linear layers of the input: what both programs' results are. -/
abbrev result (m : (ℓ : Loc nD τ sig) → Buf (Elt Ideal) ℓ) (c : Dev nD) : Buf (Elt Ideal) ((c.tc : Thread nD τ).loc main_v1) :=
  Cert.Spec.attnArr
    (Cert.Spec.projArr (m ((c.tc : Thread nD τ).loc main_arg0)) (m ((c.tc : Thread nD τ).loc main_arg2)) (m ((c.tc : Thread nD τ).loc main_arg3)))
    (Cert.Spec.projArr (m ((c.tc : Thread nD τ).loc main_arg0)) (m ((c.tc : Thread nD τ).loc main_arg4)) (m ((c.tc : Thread nD τ).loc main_arg5)))
    (Cert.Spec.projArr (m ((c.tc : Thread nD τ).loc main_arg0)) (m ((c.tc : Thread nD τ).loc main_arg6)) (m ((c.tc : Thread nD τ).loc main_arg7)))
    (m ((c.tc : Thread nD τ).loc main_arg1))

/-- The second grid leaves attention of the arrays it finds; it finds the first grid's three linear layers of the launch
    arguments and the score bias as launched. -/
theorem kernel_result (m : (ℓ : Loc nD τ sig) → Buf (Elt Ideal) ℓ) (ρ : Dev nD → PrngReg) (c : Dev nD) :
    W2 m ρ c (Proc.devRef .tc main_v1) = result m c := by
  rw [Cert.KernelIdeal.Named.result_eq, Cert.KernelIdeal.AttnArray.arr4 (V1 m ρ) c,
    Cert.KernelIdeal.Named.entry_q, Cert.KernelIdeal.Named.entry_k, Cert.KernelIdeal.Named.entry_v,
    Cert.KernelIdeal.Named.entry_bias,
    Cert.KernelIdeal.ProjArrays.arr7 (V0 m ρ) c, Cert.KernelIdeal.ProjArrays.arr8 (V0 m ρ) c,
    Cert.KernelIdeal.ProjArrays.arr9 (V0 m ρ) c]

end KernelValue

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with their result at the same function of them. -/
theorem algebraic : Cert.algebraic_KernelIdeal_ReferenceIdeal := by
  intro m ρ m' ρ' _ hagree
  refine ⟨fun c => result m c, ?_, ?_⟩
  · exact (θ_run Cert.KernelIdeal.defs _ _).mono (fun _ h c => ⟨(h c).1.trans (kernel_result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.ref_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
